-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S22016x4096 : Shape := ⟨2, ![22016, 4096]⟩
abbrev S4096x11008 : Shape := ⟨2, ![4096, 11008]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S22016x4096 : S_.BroadcastsInDim S22016x4096 (![] : Fin 0 → Fin S22016x4096.rank)
  reducesTo_S22016x4096_S_d0_1 : S22016x4096.ReducesTo [0, 1] S_
  bcast_S_S4096x11008 : S_.BroadcastsInDim S4096x11008 (![] : Fin 0 → Fin S4096x11008.rank)
  reducesTo_S4096x11008_S_d0_1 : S4096x11008.ReducesTo [0, 1] S_

variable [Facts]

def fn {F : FTy → Type} [FloatOps F] (main_arg0 : FVec F S2x2048x4096 .f32) (main_arg1 : FVec F S22016x4096 .f32) (main_arg2 : FVec F S4096x11008 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S22016x4096 .f32 := Host.absf main_arg1
  let main_cst_0 : FVec F S_ .f32 := constant S_ .f32 0x7F800000#32
  let main_v5 : FVec F S22016x4096 .f32 := broadcastInDim S22016x4096 ![] bcast_S_S22016x4096 main_cst_0
  let main_v6 : IVec S22016x4096 1 := cmpf .olt main_v4 main_v5
  let main_c_1 : IVec S_ 1 := constantI S_ 1 1#1
  let main_v7 : IVec S_ 1 := (fun x v => Host.reduce IntOp.andi x v reducesTo_S22016x4096_S_d0_1 h_S_) main_v6 main_c_1
  let main_v8 : IVec S_ 1 := andi main_v3 main_v7
  let main_v9 : FVec F S4096x11008 .f32 := Host.absf main_arg2
  let main_cst_2 : FVec F S_ .f32 := constant S_ .f32 0x7F800000#32
  let main_v10 : FVec F S4096x11008 .f32 := broadcastInDim S4096x11008 ![] bcast_S_S4096x11008 main_cst_2
  let main_v11 : IVec S4096x11008 1 := cmpf .olt main_v9 main_v10
  let main_c_3 : IVec S_ 1 := constantI S_ 1 1#1
  let main_v12 : IVec S_ 1 := (fun x v => Host.reduce IntOp.andi x v reducesTo_S4096x11008_S_d0_1 h_S_) main_v11 main_c_3
  let main_v13 : IVec S_ 1 := andi main_v8 main_v12
  main_v13
-- ==== Kernel.lean ====
abbrev S2x2048x4096 : Shape := ⟨3, ![2, 2048, 4096]⟩
abbrev S22016x4096 : Shape := ⟨2, ![22016, 4096]⟩
abbrev S4096x11008 : Shape := ⟨2, ![4096, 11008]⟩
abbrev S4096x4096 : Shape := ⟨2, ![4096, 4096]⟩
abbrev S11008x4096 : Shape := ⟨2, ![11008, 4096]⟩
abbrev S_ : Shape := ⟨0, ![]⟩
abbrev S11264x4096 : Shape := ⟨2, ![11264, 4096]⟩
abbrev S4096x11264 : Shape := ⟨2, ![4096, 11264]⟩
abbrev S512x1024 : Shape := ⟨2, ![512, 1024]⟩
abbrev S512x512 : Shape := ⟨2, ![512, 512]⟩
abbrev S1024x512 : Shape := ⟨2, ![1024, 512]⟩

abbrev nBuf : Space → Nat
  | .hbm => 18
  | .vmem => 17
  | .smem => 0
  | _ => 0

abbrev bufTy : (tb : Table) → Fin (tcTables nBuf tb) → BufTy
  | .hbm, ⟨0, _⟩ => ⟨S2x2048x4096, .f32⟩
  | .hbm, ⟨1, _⟩ => ⟨S22016x4096, .f32⟩
  | .hbm, ⟨2, _⟩ => ⟨S4096x11008, .f32⟩
  | .hbm, ⟨3, _⟩ => ⟨S4096x4096, .f32⟩
  | .hbm, ⟨4, _⟩ => ⟨S11008x4096, .f32⟩
  | .hbm, ⟨5, _⟩ => ⟨S11008x4096, .f32⟩
  | .hbm, ⟨6, _⟩ => ⟨S_, .i32⟩
  | .hbm, ⟨7, _⟩ => ⟨S_, .f32⟩
  | .hbm, ⟨8, _⟩ => ⟨S11264x4096, .f32⟩
  | .hbm, ⟨9, _⟩ => ⟨S_, .i32⟩
  | .hbm, ⟨10, _⟩ => ⟨S_, .f32⟩
  | .hbm, ⟨11, _⟩ => ⟨S11264x4096, .f32⟩
  | .hbm, ⟨12, _⟩ => ⟨S_, .i32⟩
  | .hbm, ⟨13, _⟩ => ⟨S_, .f32⟩
  | .hbm, ⟨14, _⟩ => ⟨S4096x11264, .f32⟩
  | .hbm, ⟨15, _⟩ => ⟨S4096x11264, .bf16⟩
  | .hbm, ⟨16, _⟩ => ⟨S4096x4096, .f32⟩
  | .hbm, ⟨17, _⟩ => ⟨S2x2048x4096, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S1024x512, .f32⟩
  | .local _ .vmem, ⟨13, _⟩ => ⟨S1024x512, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_c_1 : Ref sig .tc := ⟨.hbm, 12, rfl⟩
abbrev main_call2_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨3, ![8, 22, 4], ![false, false, false]⟩

def k0_cond2 (i : grid0.Coords) : BitVec 1 :=
  let arg2 : BitVec 32 := BitVec.ofNat 32 (i 2).val
  let c3_i32 : BitVec 32 := 3#32
  let v26 : BitVec 1 := Scalar.cmpi .eq arg2 c3_i32
  let v27 : BitVec 32 := Scalar.extui v26
  let c0_i32_15 : BitVec 32 := 0#32
  let v28 : BitVec 1 := Scalar.cmpi .ne v27 c0_i32_15
  v28

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![8, 4, 22], ![false, false, false]⟩

def k1_cond2 (i : grid1.Coords) : BitVec 1 :=
  let arg2 : BitVec 32 := BitVec.ofNat 32 (i 2).val
  let c21_i32 : BitVec 32 := 21#32
  let v15 : BitVec 1 := Scalar.cmpi .eq arg2 c21_i32
  let v16 : BitVec 32 := Scalar.extui v15
  let c0_i32_8 : BitVec 32 := 0#32
  let v17 : BitVec 1 := Scalar.cmpi .ne v16 c0_i32_8
  v17

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  shapeCasts_S2x2048x4096_S4096x4096 : S2x2048x4096.ShapeCasts S4096x4096
  slices_S22016x4096_S11008x4096_0_0 : S22016x4096.Slices ![0, 0] S11008x4096
  slices_S22016x4096_S11008x4096_11008_0 : S22016x4096.Slices ![11008, 0] S11008x4096
  pads_S11008x4096_S11264x4096_02560_000 : S11008x4096.Pads (![0, 0] : Fin 2 → Nat) ![256, 0] ![0, 0] S11264x4096
  h_S_ : 0 < S_.numel
  pads_S4096x11008_S4096x11264_000_02560 : S4096x11008.Pads (![0, 0] : Fin 2 → Nat) ![0, 256] ![0, 0] S4096x11264
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  transposes_S512x1024_p1_0_S1024x512 : S512x1024.Transposes [1, 0] S1024x512
  packedbf16_S512x512_S512x512_0_0 : (Rect.unit (s := S512x512) ![0, 0] S512x512.size inb_S512x512_S512x512_0_0).PackedRows (EltTy.packing .bf16)
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  transposes_S1024x512_p1_0_S512x1024 : S1024x512.Transposes [1, 0] S512x1024
  shapeCasts_S4096x4096_S2x2048x4096 : S4096x4096.ShapeCasts S2x2048x4096
  dot_S512x1024_S1024x512_S512x512_1_0_0_1_n_n_wf : DotDims.WF S512x1024 S1024x512 S512x512 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x4096.size a
  hwx0_0 : ∀ i : grid0.Coords, EltTy.bits .f32 = 32 ∨ (Rect.block (s := S4096x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S11264x4096.size a
  hwx0_1 : ∀ i : grid0.Coords, EltTy.bits .f32 = 32 ∨ (Rect.block (s := S11264x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S11264x4096.size a
  hwx0_2 : ∀ i : grid0.Coords, EltTy.bits .f32 = 32 ∨ (Rect.block (s := S11264x4096) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x11264.size a
  hwx0_3 : ∀ i : grid0.Coords, EltTy.bits .bf16 = 32 ∨ (Rect.block (s := S4096x11264) S512x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S4096x11264.size a
  hwx1_0 : ∀ i : grid1.Coords, EltTy.bits .bf16 = 32 ∨ (Rect.block (s := S4096x11264) S512x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S4096x11264.size a
  hwx1_1 : ∀ i : grid1.Coords, EltTy.bits .f32 = 32 ∨ (Rect.block (s := S4096x11264) S1024x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S4096x4096.size a
  hwx1_2 : ∀ i : grid1.Coords, EltTy.bits .f32 = 32 ∨ (Rect.block (s := S4096x4096) S512x1024.size (cc1_transform_2 i) (hinb1_2 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v6) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S512x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S22016x4096 : Shape := ⟨2, ![22016, 4096]⟩
abbrev S4096x11008 : Shape := ⟨2, ![4096, 11008]⟩
abbrev S2x2048x22016 : Shape := ⟨3, ![2, 2048, 22016]⟩
abbrev S2x2048x11008 : Shape := ⟨3, ![2, 2048, 11008]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S22016x4096, .f32⟩
  | .hbm, ⟨2, _⟩ => ⟨S4096x11008, .f32⟩
  | .hbm, ⟨3, _⟩ => ⟨S2x2048x22016, .f32⟩
  | .hbm, ⟨4, _⟩ => ⟨S2x2048x11008, .f32⟩
  | .hbm, ⟨5, _⟩ => ⟨S2x2048x11008, .f32⟩
  | .hbm, ⟨6, _⟩ => ⟨S2x2048x11008, .f32⟩
  | .hbm, ⟨7, _⟩ => ⟨S_, .f32⟩
  | .hbm, ⟨8, _⟩ => ⟨S2x2048x11008, .f32⟩
  | .hbm, ⟨9, _⟩ => ⟨S2x2048x11008, .f32⟩
  | .hbm, ⟨10, _⟩ => ⟨S_, .f32⟩
  | .hbm, ⟨11, _⟩ => ⟨S2x2048x11008, .f32⟩
  | .hbm, ⟨12, _⟩ => ⟨S2x2048x11008, .f32⟩
  | .hbm, ⟨13, _⟩ => ⟨S2x2048x11008, .f32⟩
  | .hbm, ⟨14, _⟩ => ⟨S2x2048x11008, .f32⟩
  | .hbm, ⟨15, _⟩ => ⟨S2x2048x11008, .f32⟩
  | .hbm, ⟨16, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]

class Facts₀ : Prop where
  slices_S2x2048x22016_S2x2048x11008_0_0_0 : S2x2048x22016.Slices ![0, 0, 0] S2x2048x11008
  bcast_S_S2x2048x11008 : S_.BroadcastsInDim S2x2048x11008 (![] : Fin 0 → Fin S2x2048x11008.rank)
  slices_S2x2048x22016_S2x2048x11008_0_0_11008 : S2x2048x22016.Slices ![0, 0, 11008] S2x2048x11008
  dot_S2x2048x4096_S22016x4096_S2x2048x22016_2_1_01_0_n_n_wf : DotDims.WF S2x2048x4096 S22016x4096 S2x2048x22016 [2] [1] [0, 1] [0] [] []
  dot_S2x2048x11008_S4096x11008_S2x2048x4096_2_1_01_0_n_n_wf : DotDims.WF S2x2048x11008 S4096x11008 S2x2048x4096 [2] [1] [0, 1] [0] [] []

variable [Facts₀]

def dot_S2x2048x4096_S22016x4096_S2x2048x22016_2_1_01_0_n_n : DotDims S2x2048x4096 S22016x4096 S2x2048x22016 where
  lhsContracting := [2]
  rhsContracting := [1]
  lhsNonContracting := [0, 1]
  rhsNonContracting := [0]
  lhsBatch := []
  rhsBatch := []
  wf := dot_S2x2048x4096_S22016x4096_S2x2048x22016_2_1_01_0_n_n_wf
def dot_S2x2048x11008_S4096x11008_S2x2048x4096_2_1_01_0_n_n : DotDims S2x2048x11008 S4096x11008 S2x2048x4096 where
  lhsContracting := [2]
  rhsContracting := [1]
  lhsNonContracting := [0, 1]
  rhsNonContracting := [0]
  lhsBatch := []
  rhsBatch := []
  wf := dot_S2x2048x11008_S4096x11008_S2x2048x4096_2_1_01_0_n_n_wf

class Facts : Prop extends Facts₀ where

variable [Facts]
-- ==== Proof.KI.R0Body.lean ====
/-
  The gate/up kernel's body at one grid point, as three triples by the position k of the point on the
  contraction axis: at k = 0 both accumulators are reset to zero and then take the first partial products;
  at 0 < k < 3 they add the point's partial products to what the point before left; at k = 3 they do the same
  and the output block is stored as silu(gate) * up of the finished accumulators.
-/
import proofs.«140974_j30425548325397_1_alg».proof.Proof.Gen.KernelIdeal.Launch
import proofs.«140974_j30425548325397_1_alg».proof.Proof.Gen.KernelIdeal.Skeleton
import proofs.«140974_j30425548325397_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The point is the first on the contraction axis (k = 0): the body's first conditional, as printed. -/
abbrev condFirst (i : grid0.Coords) : Prop :=
  (Scalar.cmpi .ne (Scalar.extui (Scalar.cmpi .eq (BitVec.ofNat 32 (i 2).val) 0#32)) 0#32) = 1#1
/-- The point is the last on the contraction axis (k = 3): the body's second conditional. -/
abbrev condLast (i : grid0.Coords) : Prop := k0_cond2 i = 1#1

/-- The gate accumulator after a point: what it held plus x_blk · wg_blkᵀ. -/
abbrev stepG (x0 x1 : Vec F S512x1024 .f32) (s : Vec F S512x512 .f32) : Vec F S512x512 .f32 := k0_pay4 x0 x1 s
/-- The up accumulator after a point: what it held plus x_blk · wu_blkᵀ. -/
abbrev stepU (x0 x2 : Vec F S512x1024 .f32) (s : Vec F S512x512 .f32) : Vec F S512x512 .f32 := k0_pay5 x0 x2 s
/-- The zero block an accumulator is reset to. -/
abbrev zeroG : Vec F S512x512 .f32 := k0_pay1
abbrev zeroU : Vec F S512x512 .f32 := k0_pay2
/-- The output block: silu(gate) * up, in bf16. -/
abbrev outBlk (g u : Vec F S512x512 .f32) : Vec F S512x512 .bf16 := k0_pay6 g u

/-- The offsets of a whole-buffer access, `![0, 0]`, are the constant zero function. -/
private theorem offsets_zero : (![0, 0] : Fin 2 → Nat) = fun _ => 0 := funext fun a => by fin_cases a <;> rfl

set_option maxHeartbeats 1000000 in
/-- k = 0: the accumulators, at anything, end at one step from zero; the output buffer is not touched. -/
theorem run_first (c : Dev nD) (E : Set ℕ) (i : grid0.Coords)
    (arg3 : Memref sig .tc .vmem S512x1024 .f32) (harg3 : arg3.IsWhole) (arg4 : Memref sig .tc .vmem S512x1024 .f32) (harg4 : arg4.IsWhole)
    (arg5 : Memref sig .tc .vmem S512x1024 .f32) (harg5 : arg5.IsWhole) (arg6 : Memref sig .tc .vmem S512x512 .bf16) (harg6 : arg6.IsWhole)
    (arg7 : Memref sig .tc .vmem S512x512 .f32) (harg7 : arg7.IsWhole) (arg8 : Memref sig .tc .vmem S512x512 .f32) (harg8 : arg8.IsWhole)
    (x0 x1 x2 : Vec F S512x1024 .f32) (K : PUnit → sProp 𝕄)
    (h1 : condFirst i) (h2 : ¬condLast i) :
    iprop(owns (c : Thread nD τ) arg3 fullShare x0 ∗ owns (c : Thread nD τ) arg4 fullShare x1 ∗ owns (c : Thread nD τ) arg5 fullShare x2
        ∗ (∃ d, owns (c : Thread nD τ) arg7 fullShare d) ∗ (∃ d, owns (c : Thread nD τ) arg8 fullShare d)
        ∗ (iprop(owns (c : Thread nD τ) arg3 fullShare x0 ∗ owns (c : Thread nD τ) arg4 fullShare x1 ∗ owns (c : Thread nD τ) arg5 fullShare x2
            ∗ owns (c : Thread nD τ) arg7 fullShare (stepG x0 x1 zeroG) ∗ owns (c : Thread nD τ) arg8 fullShare (stepU x0 x2 zeroU)) -∗ K ⟨⟩))
      ⊢ wp frame (wpE (defs₀ (F := F)) Variants.none c none) E (cc0__gate_up_kernel i arg3 harg3 arg4 harg4 arg5 harg5 arg6 harg6 arg7 harg7 arg8 harg8) K := by
  -- the body is its skeleton; a whole buffer's contents are determined by what they read as
  simp only [cc0__gate_up_kernel_eq_skeleton]; unfold cc0__gate_up_kernel_skel
  unfold owns
  iintro ⟨⟨%f3, %hf3, H3⟩, ⟨%f4, %hf4, H4⟩, ⟨%f5, %hf5, H5⟩, ⟨%d7, %f7, -, H7⟩, ⟨%d8, %f8, -, H8⟩, Hk⟩
  obtain rfl := harg3.eq_unread hf3; obtain rfl := harg4.eq_unread hf4; obtain rfl := harg5.eq_unread hf5
  -- both conditionals are decided by the position of the point on the contraction axis
  sl_exec (disch := first | exact h1 | exact h2)
  sl_step
  iapply Hk
  -- the inputs are read only: they go back as they came
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  -- each accumulator was stored twice, the update last and over the whole block: it reads as the update's payload,
  -- whose own read of the accumulator is the zero block the reset left
  isplitl [H7]
  · iexists _; isplitr
    swap; · iexact H7
    ipureintro
    rw [View.read_writes_eq_canon _ _ _ (fun y => ⟨_, List.mem_cons.mpr (Or.inl rfl), View.mem_set_unit_zero offsets_zero inb_S512x512_S512x512_0_0 y⟩),
      View.canon_cons_unit_zero (S := S512x512) offsets_zero]
    sl_unfold_words
    simp only [View.readAt_eq_ld, harg3.read_unread, harg4.read_unread,
      View.ld_unit_zero (S := S512x1024) offsets_zero, View.readCov_unit_zero (S := S512x512) _ offsets_zero]
  iexists _; isplitr
  swap; · iexact H8
  ipureintro
  rw [View.read_writes_eq_canon _ _ _ (fun y => ⟨_, List.mem_cons.mpr (Or.inl rfl), View.mem_set_unit_zero offsets_zero inb_S512x512_S512x512_0_0 y⟩),
    View.canon_cons_unit_zero (S := S512x512) offsets_zero]
  sl_unfold_words
  simp only [View.readAt_eq_ld, harg3.read_unread, harg5.read_unread,
    View.ld_unit_zero (S := S512x1024) offsets_zero, View.readCov_unit_zero (S := S512x512) _ offsets_zero]

set_option maxHeartbeats 1000000 in
/-- 0 < k < 3: the accumulators, at s7 and s8, end one step further; the output buffer is not touched. -/
theorem run_mid (c : Dev nD) (E : Set ℕ) (i : grid0.Coords)
    (arg3 : Memref sig .tc .vmem S512x1024 .f32) (harg3 : arg3.IsWhole) (arg4 : Memref sig .tc .vmem S512x1024 .f32) (harg4 : arg4.IsWhole)
    (arg5 : Memref sig .tc .vmem S512x1024 .f32) (harg5 : arg5.IsWhole) (arg6 : Memref sig .tc .vmem S512x512 .bf16) (harg6 : arg6.IsWhole)
    (arg7 : Memref sig .tc .vmem S512x512 .f32) (harg7 : arg7.IsWhole) (arg8 : Memref sig .tc .vmem S512x512 .f32) (harg8 : arg8.IsWhole)
    (x0 x1 x2 : Vec F S512x1024 .f32) (K : PUnit → sProp 𝕄)
    (h1 : ¬condFirst i) (h2 : ¬condLast i) (s7 s8 : Vec F S512x512 .f32) :
    iprop(owns (c : Thread nD τ) arg3 fullShare x0 ∗ owns (c : Thread nD τ) arg4 fullShare x1 ∗ owns (c : Thread nD τ) arg5 fullShare x2
        ∗ owns (c : Thread nD τ) arg7 fullShare s7 ∗ owns (c : Thread nD τ) arg8 fullShare s8
        ∗ (iprop(owns (c : Thread nD τ) arg3 fullShare x0 ∗ owns (c : Thread nD τ) arg4 fullShare x1 ∗ owns (c : Thread nD τ) arg5 fullShare x2
            ∗ owns (c : Thread nD τ) arg7 fullShare (stepG x0 x1 s7) ∗ owns (c : Thread nD τ) arg8 fullShare (stepU x0 x2 s8)) -∗ K ⟨⟩))
      ⊢ wp frame (wpE (defs₀ (F := F)) Variants.none c none) E (cc0__gate_up_kernel i arg3 harg3 arg4 harg4 arg5 harg5 arg6 harg6 arg7 harg7 arg8 harg8) K := by
  -- the body is its skeleton; a whole buffer's contents are determined by what they read as
  simp only [cc0__gate_up_kernel_eq_skeleton]; unfold cc0__gate_up_kernel_skel
  unfold owns
  iintro ⟨⟨%f3, %hf3, H3⟩, ⟨%f4, %hf4, H4⟩, ⟨%f5, %hf5, H5⟩, ⟨%f7, %hf7, H7⟩, ⟨%f8, %hf8, H8⟩, Hk⟩
  obtain rfl := harg3.eq_unread hf3; obtain rfl := harg4.eq_unread hf4; obtain rfl := harg5.eq_unread hf5
  obtain rfl := harg7.eq_unread hf7; obtain rfl := harg8.eq_unread hf8
  -- both conditionals are decided by the position of the point on the contraction axis
  sl_exec (disch := first | exact h1 | exact h2)
  sl_step
  iapply Hk
  -- the inputs are read only: they go back as they came
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  -- each accumulator was stored once, over the whole block: it reads as that payload, taken at what it held before
  isplitl [H7]
  · iexists _; isplitr
    swap; · iexact H7
    ipureintro
    rw [View.read_writes_eq_canon _ _ _ (fun y => ⟨_, List.mem_singleton_self _, View.mem_set_unit_zero offsets_zero inb_S512x512_S512x512_0_0 y⟩),
      View.canon_unit_zero offsets_zero]
    simp only [View.readAt_eq_ld, harg3.read_unread, harg4.read_unread, harg7.read_unread,
      View.ld_unit_zero (S := S512x1024) offsets_zero, View.ld_unit_zero (S := S512x512) offsets_zero]
  iexists _; isplitr
  swap; · iexact H8
  ipureintro
  rw [View.read_writes_eq_canon _ _ _ (fun y => ⟨_, List.mem_singleton_self _, View.mem_set_unit_zero offsets_zero inb_S512x512_S512x512_0_0 y⟩),
    View.canon_unit_zero offsets_zero]
  simp only [View.readAt_eq_ld, harg3.read_unread, harg5.read_unread, harg8.read_unread,
    View.ld_unit_zero (S := S512x1024) offsets_zero, View.ld_unit_zero (S := S512x512) offsets_zero]

set_option maxHeartbeats 1000000 in
/-- k = 3: one step further, and the output buffer, at anything, ends at the output block of the finished accumulators. -/
theorem run_last (c : Dev nD) (E : Set ℕ) (i : grid0.Coords)
    (arg3 : Memref sig .tc .vmem S512x1024 .f32) (harg3 : arg3.IsWhole) (arg4 : Memref sig .tc .vmem S512x1024 .f32) (harg4 : arg4.IsWhole)
    (arg5 : Memref sig .tc .vmem S512x1024 .f32) (harg5 : arg5.IsWhole) (arg6 : Memref sig .tc .vmem S512x512 .bf16) (harg6 : arg6.IsWhole)
    (arg7 : Memref sig .tc .vmem S512x512 .f32) (harg7 : arg7.IsWhole) (arg8 : Memref sig .tc .vmem S512x512 .f32) (harg8 : arg8.IsWhole)
    (x0 x1 x2 : Vec F S512x1024 .f32) (K : PUnit → sProp 𝕄)
    (h1 : ¬condFirst i) (h2 : condLast i) (s7 s8 : Vec F S512x512 .f32) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ owns (c : Thread nD τ) arg7 fullShare s7 ∗ owns (c : Thread nD τ) arg8 fullShare s8
        ∗ (iprop(owns (c : Thread nD τ) arg3 fullShare x0 ∗ owns (c : Thread nD τ) arg4 fullShare x1 ∗ owns (c : Thread nD τ) arg5 fullShare x2
            ∗ owns (c : Thread nD τ) arg6 fullShare (outBlk (stepG x0 x1 s7) (stepU x0 x2 s8))
            ∗ owns (c : Thread nD τ) arg7 fullShare (stepG x0 x1 s7) ∗ owns (c : Thread nD τ) arg8 fullShare (stepU x0 x2 s8)) -∗ K ⟨⟩))
      ⊢ wp frame (wpE (defs₀ (F := F)) Variants.none c none) E (cc0__gate_up_kernel i arg3 harg3 arg4 harg4 arg5 harg5 arg6 harg6 arg7 harg7 arg8 harg8) K := by
  -- the body is its skeleton; a whole buffer's contents are determined by what they read as
  simp only [cc0__gate_up_kernel_eq_skeleton]; unfold cc0__gate_up_kernel_skel
  unfold owns
  iintro ⟨⟨%f3, %hf3, H3⟩, ⟨%f4, %hf4, H4⟩, ⟨%f5, %hf5, H5⟩, ⟨%d6, %f6, -, H6⟩, ⟨%f7, %hf7, H7⟩, ⟨%f8, %hf8, H8⟩, Hk⟩
  obtain rfl := harg3.eq_unread hf3; obtain rfl := harg4.eq_unread hf4; obtain rfl := harg5.eq_unread hf5
  obtain rfl := harg7.eq_unread hf7; obtain rfl := harg8.eq_unread hf8
  -- both conditionals are decided by the position of the point on the contraction axis
  sl_exec (disch := first | exact h1 | exact h2)
  sl_step
  iapply Hk
  -- the inputs are read only: they go back as they came
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  -- the output block was stored once, whole, from the accumulators read back after their updates
  isplitl [H6]
  · iexists _; isplitr
    swap; · iexact H6
    ipureintro
    sl_unfold_words
    rw [View.read_writes_eq_canon _ _ _ (fun y => ⟨_, List.mem_singleton_self _, View.mem_set_unit_zero offsets_zero inb_S512x512_S512x512_0_0 y⟩),
      View.canon_unit_zero offsets_zero]
    simp only [View.readAt_eq_ld, harg3.read_unread, harg4.read_unread, harg5.read_unread, harg7.read_unread,
      harg8.read_unread, View.ld_unit_zero (S := S512x1024) offsets_zero, View.ld_unit_zero (S := S512x512) offsets_zero,
      View.readCov_unit_zero (S := S512x512) _ offsets_zero]
  -- each accumulator was stored once, over the whole block: it reads as that payload, taken at what it held before
  isplitl [H7]
  · iexists _; isplitr
    swap; · iexact H7
    ipureintro
    sl_unfold_words
    rw [View.read_writes_eq_canon _ _ _ (fun y => ⟨_, List.mem_singleton_self _, View.mem_set_unit_zero offsets_zero inb_S512x512_S512x512_0_0 y⟩),
      View.canon_unit_zero offsets_zero]
    simp only [View.readAt_eq_ld, harg3.read_unread, harg4.read_unread, harg7.read_unread,
      View.ld_unit_zero (S := S512x1024) offsets_zero, View.ld_unit_zero (S := S512x512) offsets_zero]
  iexists _; isplitr
  swap; · iexact H8
  ipureintro
  sl_unfold_words
  rw [View.read_writes_eq_canon _ _ _ (fun y => ⟨_, List.mem_singleton_self _, View.mem_set_unit_zero offsets_zero inb_S512x512_S512x512_0_0 y⟩),
    View.canon_unit_zero offsets_zero]
  simp only [View.readAt_eq_ld, harg3.read_unread, harg5.read_unread, harg8.read_unread,
    View.ld_unit_zero (S := S512x1024) offsets_zero, View.ld_unit_zero (S := S512x512) offsets_zero]

end Cert.KernelIdeal.R0

end
-- ==== Proof.KI.R0Data.lean ====
/-
  The gate/up region's proof data, at the contents V the region is entered from. The grid is 8 x 22 x 4 with the
  contraction axis innermost, so point t has k = t mod 4. The two accumulators are carried from point to point:
  after point t they hold the partial sums over the contraction blocks 0..k of the output block the point belongs to.
  The output window is stored, and written back, only at the points with k = 3.
-/
import proofs.«140974_j30425548325397_1_alg».proof.Proof.KI.R0Body

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The conditions and the schedule in closed form -/

theorem hfirst : ∀ t : Fin cfg0.N, condFirst (grid0.coords t) ↔ t.val % 4 = 0 :=
  (by decide +kernel : ∀ t : Fin grid0.N, condFirst (grid0.coords t) ↔ t.val % 4 = 0)
theorem hlast : ∀ t : Fin cfg0.N, condLast (grid0.coords t) ↔ t.val % 4 = 3 :=
  (by decide +kernel : ∀ t : Fin grid0.N, condLast (grid0.coords t) ↔ t.val % 4 = 3)
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem idle3 : ∀ t : Fin cfg0.N, ¬condLast (grid0.coords t) → cfg0.idle 3 (grid0.coords t) = true := by decide +kernel
theorem noflush3 : ∀ t : Fin cfg0.N, ¬condLast (grid0.coords t) → (cfg0.win 3).flush t = false := by decide +kernel
theorem live3 : ∀ t : Fin cfg0.N, condLast (grid0.coords t) → cfg0.idle 3 (grid0.coords t) = false := by decide +kernel

/-! ## The accumulators, point by point -/

/-- What the two accumulators hold after the body at position n: restarted from zero where k = 0, else one step
    from what the point before left. -/
def acc (c : Dev nD) : (n : ℕ) → n < cfg0.N → Vec F S512x512 .f32 × Vec F S512x512 .f32
  | 0, hn => (stepG (iblk V c 0 ⟨0, hn⟩) (iblk V c 1 ⟨0, hn⟩) zeroG, stepU (iblk V c 0 ⟨0, hn⟩) (iblk V c 2 ⟨0, hn⟩) zeroU)
  | n + 1, hn =>
    if (n + 1) % 4 = 0 then
      (stepG (iblk V c 0 ⟨n + 1, hn⟩) (iblk V c 1 ⟨n + 1, hn⟩) zeroG, stepU (iblk V c 0 ⟨n + 1, hn⟩) (iblk V c 2 ⟨n + 1, hn⟩) zeroU)
    else
      (stepG (iblk V c 0 ⟨n + 1, hn⟩) (iblk V c 1 ⟨n + 1, hn⟩) (acc c n (Nat.lt_of_succ_lt hn)).1,
       stepU (iblk V c 0 ⟨n + 1, hn⟩) (iblk V c 2 ⟨n + 1, hn⟩) (acc c n (Nat.lt_of_succ_lt hn)).2)

theorem acc_first (c : Dev nD) (t : Fin cfg0.N) (h : t.val % 4 = 0) :
    acc V c t.val t.isLt = (stepG (iblk V c 0 t) (iblk V c 1 t) zeroG, stepU (iblk V c 0 t) (iblk V c 2 t) zeroU) := by
  obtain ⟨n, hn⟩ := t
  cases n with
  | zero => exact rfl
  | succ n => exact (if_pos h).trans rfl

theorem acc_next (c : Dev nD) (t : Fin cfg0.N) (h : ¬t.val % 4 = 0) :
    acc V c t.val t.isLt = (stepG (iblk V c 0 t) (iblk V c 1 t) (acc V c (t.val - 1) (Nat.lt_of_le_of_lt (Nat.sub_le _ _) t.isLt)).1,
      stepU (iblk V c 0 t) (iblk V c 2 t) (acc V c (t.val - 1) (Nat.lt_of_le_of_lt (Nat.sub_le _ _) t.isLt)).2) := by
  obtain ⟨n, hn⟩ := t
  cases n with
  | zero => exact absurd (Nat.zero_mod _) h
  | succ n => exact (if_neg h).trans rfl

/-! ## The invariant between points -/

/-- The two accumulators as memrefs. -/
abbrev scG : Memref sig .tc .vmem S512x512 .f32 := Memref.whole cc0_scratch0
abbrev scU : Memref sig .tc .vmem S512x512 .f32 := Memref.whole cc0_scratch1

/-- The core's other scoped buffers that are no staging buffer of this call (the second call's), each at anything. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant with the two accumulators as memrefs owned at some contents. -/
theorem PhiA_eq (c : Dev nD) :
    (Pipeline.ΦA spec0 c : sProp 𝕄)
      = iprop(((∃ d, owns (c : Thread nD τ) scG fullShare d) ∗ (∃ d, owns (c : Thread nD τ) scU fullShare d) ∗ others (F := F) c) ∗ (∃ r, prngReg c r)) := by
  unfold Pipeline.ΦA others; rw [scopedRest0_eq]; simp only [scG, scU, owns_whole]; rfl

/-- Before position n: at the first point every scoped buffer at anything; afterwards the accumulators at what the
    point before left. -/
def Phi (c : Dev nD) : (n : ℕ) → n ≤ cfg0.N → sProp 𝕄
  | 0, _ => Pipeline.ΦA spec0 c
  | n + 1, hn => iprop((owns (c : Thread nD τ) scG fullShare (acc V c n hn).1 ∗ owns (c : Thread nD τ) scU fullShare (acc V c n hn).2 ∗ others (F := F) c) ∗ (∃ r, prngReg c r))

theorem Phi_zero (c : Dev nD) (n : ℕ) (h : n ≤ cfg0.N) (hz : n = 0) : Phi V c n h = Pipeline.ΦA spec0 c := by
  subst hz; rfl

/-- After position n (before position n + 1): the accumulators at that point's contents. -/
theorem Phi_succ (c : Dev nD) (n : ℕ) (hn : n < cfg0.N) :
    Phi V c (n + 1) hn = iprop((owns (c : Thread nD τ) scG fullShare (acc V c n hn).1 ∗ owns (c : Thread nD τ) scU fullShare (acc V c n hn).2 ∗ others (F := F) c) ∗ (∃ r, prngReg c r)) := rfl

/-- Before a position that is not the first: the accumulators at what the point before left. -/
theorem Phi_pos (c : Dev nD) (n : ℕ) (h : n ≤ cfg0.N) (hz : n ≠ 0) :
    Phi V c n h = iprop((owns (c : Thread nD τ) scG fullShare (acc V c (n - 1) (by omega)).1 ∗ owns (c : Thread nD τ) scU fullShare (acc V c (n - 1) (by omega)).2 ∗ others (F := F) c) ∗ (∃ r, prngReg c r)) := by
  cases n with
  | zero => exact absurd rfl hz
  | succ n => rfl

/-! ## The proof data -/

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outBlk (acc V c t.val t.isLt).1 (acc V c t.val t.isLt).2
  Φ t := Phi V c t.val (Nat.le_of_lt_succ t.isLt)
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = outBlk (acc V c t.val t.isLt).1 (acc V c t.val t.isLt).2 := by dsimp only [dat]

/-- The invariant at a point's start, restated at the point's position. -/
theorem Phi_castSucc (c : Dev nD) (t : Fin cfg0.N) :
    (dat V c).Φ t.castSucc = Phi V c t.val (Nat.le_of_lt t.isLt) := by
  dsimp only [dat]; simp only [Fin.coe_castSucc]

/-! ## The input windows hold their blocks at every point -/

theorem before_0 (c : Dev nD) (t : Fin cfg0.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)

/-! ## The body obligation, at a generic point -/

/-- Each window's current staging memref at point t, as the pipeline passes it, and its wholeness. -/
abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x512 .bf16 := win0_3.stage (cfg0.slots t 3)
abbrev hs3 (t : Fin cfg0.N) : (ms3 t).IsWhole := hstage0_3 ((cfg0.slots t 3).cast nbuf0_3)

/-- What the body is called with at point t: the invariant, nothing owed, each window's current buffer at what it holds. -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The three input buffers hold their blocks; the position on the contraction axis says which
    of the three triples applies; the invariant hands over the two accumulators (at anything before the first point,
    else at what the point before left) and takes them back one step further; the output buffer is handed back as
    found where the window is idle, and at the output block of the finished accumulators where k = 3. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (ms0 t) fullShare ((dat V c).after 0 t) from by
    unfold Dat.leavesExact; rw [live0 t], after_0]
  rw [show (dat V c).leavesExact 1 t = owns (c : Thread nD τ) (ms1 t) fullShare ((dat V c).after 1 t) from by
    unfold Dat.leavesExact; rw [live1 t], after_1]
  rw [show (dat V c).leavesExact 2 t = owns (c : Thread nD τ) (ms2 t) fullShare ((dat V c).after 2 t) from by
    unfold Dat.leavesExact; rw [live2 t], after_2]
  by_cases h0 : t.val % 4 = 0
  · have hc1 : condFirst (grid0.coords t) := (hfirst t).mpr h0
    have hc2 : ¬condLast (grid0.coords t) := fun h => by have := (hlast t).mp h; omega
    rw [Dat.leavesExact_idle (dat V c) 3 t (idle3 t hc2) (noflush3 t hc2)]
    rw [acc_first V c t h0]
    dsimp only
    by_cases hz : t.val = 0
    · rw [Phi_castSucc V c t, Phi_zero V c _ _ hz, PhiA_eq]
      iintro ⟨⟨⟨HG, HU, Hoth⟩, Hg⟩, Ho, ⟨%d0, H0⟩, ⟨%d1, H1⟩, ⟨%d2, H2⟩, ⟨%d3, H3⟩⟩
      iapply (run_first c Set.univ (grid0.coords t) (ms0 t) (hs0 t) (ms1 t) (hs1 t) (ms2 t) (hs2 t) (ms3 t) (hs3 t)
        scG (Memref.isWhole_whole _) scU (Memref.isWhole_whole _) (iblk V c 0 t) (iblk V c 1 t) (iblk V c 2 t) _ hc1 hc2)
      isplitl [H0]; · iexact H0
      isplitl [H1]; · iexact H1
      isplitl [H2]; · iexact H2
      isplitl [HG]; · iexact HG
      isplitl [HU]; · iexact HU
      iintro ⟨H0, H1, H2, HG, HU⟩
      isplitl [HG HU Hoth Hg]
      · isplitr [Hg]
        · isplitl [HG]; · iexact HG
          isplitl [HU]; · iexact HU
          iexact Hoth
        iexact Hg
      isplitl [Ho]; · iexact Ho
      isplitl [H0]; · iexact H0
      isplitl [H1]; · iexact H1
      isplitl [H2]; · iexact H2
      iexists _; iexact H3
    · rw [Phi_castSucc V c t, Phi_pos V c _ _ hz]
      iintro ⟨⟨⟨HG, HU, Hoth⟩, Hg⟩, Ho, ⟨%d0, H0⟩, ⟨%d1, H1⟩, ⟨%d2, H2⟩, ⟨%d3, H3⟩⟩
      iapply (run_first c Set.univ (grid0.coords t) (ms0 t) (hs0 t) (ms1 t) (hs1 t) (ms2 t) (hs2 t) (ms3 t) (hs3 t)
        scG (Memref.isWhole_whole _) scU (Memref.isWhole_whole _) (iblk V c 0 t) (iblk V c 1 t) (iblk V c 2 t) _ hc1 hc2)
      isplitl [H0]; · iexact H0
      isplitl [H1]; · iexact H1
      isplitl [H2]; · iexact H2
      isplitl [HG]; · iexists _; iexact HG
      isplitl [HU]; · iexists _; iexact HU
      iintro ⟨H0, H1, H2, HG, HU⟩
      isplitl [HG HU Hoth Hg]
      · isplitr [Hg]
        · isplitl [HG]; · iexact HG
          isplitl [HU]; · iexact HU
          iexact Hoth
        iexact Hg
      isplitl [Ho]; · iexact Ho
      isplitl [H0]; · iexact H0
      isplitl [H1]; · iexact H1
      isplitl [H2]; · iexact H2
      iexists _; iexact H3
  · have hc1 : ¬condFirst (grid0.coords t) := fun h => h0 ((hfirst t).mp h)
    have hz : t.val ≠ 0 := fun h => h0 (by rw [h])
    by_cases h3 : t.val % 4 = 3
    · have hc2 : condLast (grid0.coords t) := (hlast t).mpr h3
      rw [show (dat V c).leavesExact 3 t = owns (c : Thread nD τ) (ms3 t) fullShare ((dat V c).after 3 t) from by
        unfold Dat.leavesExact; rw [live3 t hc2], after_3]
      rw [acc_next V c t h0]
      dsimp only
      rw [Phi_castSucc V c t, Phi_pos V c _ _ hz]
      iintro ⟨⟨⟨HG, HU, Hoth⟩, Hg⟩, Ho, ⟨%d0, H0⟩, ⟨%d1, H1⟩, ⟨%d2, H2⟩, ⟨%d3, H3⟩⟩
      iapply (run_last c Set.univ (grid0.coords t) (ms0 t) (hs0 t) (ms1 t) (hs1 t) (ms2 t) (hs2 t) (ms3 t) (hs3 t)
        scG (Memref.isWhole_whole _) scU (Memref.isWhole_whole _) (iblk V c 0 t) (iblk V c 1 t) (iblk V c 2 t) _ hc1 hc2
        (acc V c (t.val - 1) (Nat.lt_of_le_of_lt (Nat.sub_le _ _) t.isLt)).1
        (acc V c (t.val - 1) (Nat.lt_of_le_of_lt (Nat.sub_le _ _) t.isLt)).2)
      isplitl [H0]; · iexact H0
      isplitl [H1]; · iexact H1
      isplitl [H2]; · iexact H2
      isplitl [H3]; · iexists _; iexact H3
      isplitl [HG]; · iexact HG
      isplitl [HU]; · iexact HU
      iintro ⟨H0, H1, H2, H3, HG, HU⟩
      isplitl [HG HU Hoth Hg]
      · isplitr [Hg]
        · isplitl [HG]; · iexact HG
          isplitl [HU]; · iexact HU
          iexact Hoth
        iexact Hg
      isplitl [Ho]; · iexact Ho
      isplitl [H0]; · iexact H0
      isplitl [H1]; · iexact H1
      isplitl [H2]; · iexact H2
      iexact H3
    · have hc2 : ¬condLast (grid0.coords t) := fun h => h3 ((hlast t).mp h)
      rw [Dat.leavesExact_idle (dat V c) 3 t (idle3 t hc2) (noflush3 t hc2)]
      rw [acc_next V c t h0]
      dsimp only
      rw [Phi_castSucc V c t, Phi_pos V c _ _ hz]
      iintro ⟨⟨⟨HG, HU, Hoth⟩, Hg⟩, Ho, ⟨%d0, H0⟩, ⟨%d1, H1⟩, ⟨%d2, H2⟩, ⟨%d3, H3⟩⟩
      iapply (run_mid c Set.univ (grid0.coords t) (ms0 t) (hs0 t) (ms1 t) (hs1 t) (ms2 t) (hs2 t) (ms3 t) (hs3 t)
        scG (Memref.isWhole_whole _) scU (Memref.isWhole_whole _) (iblk V c 0 t) (iblk V c 1 t) (iblk V c 2 t) _ hc1 hc2
        (acc V c (t.val - 1) (Nat.lt_of_le_of_lt (Nat.sub_le _ _) t.isLt)).1
        (acc V c (t.val - 1) (Nat.lt_of_le_of_lt (Nat.sub_le _ _) t.isLt)).2)
      isplitl [H0]; · iexact H0
      isplitl [H1]; · iexact H1
      isplitl [H2]; · iexact H2
      isplitl [HG]; · iexact HG
      isplitl [HU]; · iexact HU
      iintro ⟨H0, H1, H2, HG, HU⟩
      isplitl [HG HU Hoth Hg]
      · isplitr [Hg]
        · isplitl [HG]; · iexact HG
          isplitl [HU]; · iexact HU
          iexact Hoth
        iexact Hg
      isplitl [Ho]; · iexact Ho
      isplitl [H0]; · iexact H0
      isplitl [H1]; · iexact H1
      isplitl [H2]; · iexact H2
      iexists _; iexact H3

/-- The body obligation at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = Phi V c 0 (Nat.zero_le _) from rfl, Phi_zero V c 0 _ rfl]

/-- After the last point the accumulators' contents are forgotten. -/
theorem hout (c : Dev nD) : (dat V c).Φ (Fin.last cfg0.N) ⊢ Pipeline.ΦA spec0 c := by
  have hN : (Fin.last cfg0.N).val ≠ 0 := by rw [Fin.val_last]; have : cfg0.N = 704 := N_0; omega
  rw [show (dat V c).Φ (Fin.last cfg0.N) = Phi V c (Fin.last cfg0.N).val (Nat.le_of_lt_succ (Fin.last cfg0.N).isLt) from rfl,
    Phi_pos V c _ _ hN, PhiA_eq]
  iintro ⟨⟨HG, HU, Hoth⟩, Hg⟩
  isplitr [Hg]
  · isplitl [HG]
    · iexists _; iexact HG
    isplitl [HU]
    · iexists _; iexact HU
    iexact Hoth
  iexact Hg

end Cert.KernelIdeal.R0

end
-- ==== Proof.KI.R1Body.lean ====
/-
  The down-projection kernel's body at one grid point, as three triples by the position k of the point on the
  contraction axis (22 blocks): at k = 0 the accumulator is reset to zero and takes the first partial product;
  at 0 < k < 21 it adds the point's partial product; at k = 21 it does the same and the finished accumulator is
  stored as the output block.
-/
import proofs.«140974_j30425548325397_1_alg».proof.Proof.Gen.KernelIdeal.Launch
import proofs.«140974_j30425548325397_1_alg».proof.Proof.Gen.KernelIdeal.Skeleton
import proofs.«140974_j30425548325397_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The point is the first on the contraction axis (k = 0): the body's first conditional, as printed. -/
abbrev condFirst (i : grid1.Coords) : Prop :=
  (Scalar.cmpi .ne (Scalar.extui (Scalar.cmpi .eq (BitVec.ofNat 32 (i 2).val) 0#32)) 0#32) = 1#1
/-- The point is the last on the contraction axis (k = 21): the body's second conditional. -/
abbrev condLast (i : grid1.Coords) : Prop := k1_cond2 i = 1#1

/-- The accumulator after a point: what it held plus h_blk · wd_blkᵀ. -/
abbrev stepD (x0 : Vec F S512x512 .bf16) (x1 : Vec F S1024x512 .f32) (s : Vec F S512x1024 .f32) : Vec F S512x1024 .f32 := k1_pay2 x0 x1 s
/-- The zero block the accumulator is reset to. -/
abbrev zeroD : Vec F S512x1024 .f32 := k1_pay1

/-- The offsets of every access of the body: zero on both axes. -/
private theorem off00 : (![0, 0] : Fin 2 → Nat) = fun _ => 0 := funext fun a => by fin_cases a <;> rfl

/-- A buffer whose last write went through the whole box reads back as that write's payload, whatever it held and
    whatever was written before: the box holds every index. It holds for any shape. -/
private theorem read_last_whole {κ : Kind} {sp : Space} {S : Shape} {e : EltTy} (v : View sig κ sp S e)
    (f : v.ty.Contents (Elt F)) {off : Fin S.rank → Nat} (h : off = fun _ => 0)
    (inb : ∀ a, off a + S.size a ≤ S.size a) (p : S.Idx → Elt F e) (L : List (View.Piece (Elt F) S e)) :
    v.read (Elt F) (v.writes (Elt F) f (⟨Rect.unit off S.size inb, p⟩ :: L)) = p := by
  rw [View.read_writes_eq_canon v f _ (fun y => ⟨_, List.mem_cons_self, View.mem_set_unit_zero h inb y⟩),
    View.canon_cons_unit_zero h]

set_option maxHeartbeats 1000000 in
/-- k = 0: the accumulator, at anything, ends at one step from zero; the output buffer is not touched. -/
theorem run_first (c : Dev nD) (E : Set ℕ) (i : grid1.Coords)
    (arg3 : Memref sig .tc .vmem S512x512 .bf16) (harg3 : arg3.IsWhole) (arg4 : Memref sig .tc .vmem S1024x512 .f32) (harg4 : arg4.IsWhole)
    (arg5 : Memref sig .tc .vmem S512x1024 .f32) (harg5 : arg5.IsWhole) (arg6 : Memref sig .tc .vmem S512x1024 .f32) (harg6 : arg6.IsWhole)
    (x0 : Vec F S512x512 .bf16) (x1 : Vec F S1024x512 .f32) (K : PUnit → sProp 𝕄)
    (h1 : condFirst i) (h2 : ¬condLast i) :
    iprop(owns (c : Thread nD τ) arg3 fullShare x0 ∗ owns (c : Thread nD τ) arg4 fullShare x1
        ∗ (∃ d, owns (c : Thread nD τ) arg6 fullShare d)
        ∗ (iprop(owns (c : Thread nD τ) arg3 fullShare x0 ∗ owns (c : Thread nD τ) arg4 fullShare x1
            ∗ owns (c : Thread nD τ) arg6 fullShare (stepD x0 x1 zeroD)) -∗ K ⟨⟩))
      ⊢ wp frame (wpE (defs₀ (F := F)) Variants.none c none) E (cc1__down_kernel i arg3 harg3 arg4 harg4 arg5 harg5 arg6 harg6) K := by
  simp only [cc1__down_kernel_eq_skeleton]; unfold cc1__down_kernel_skel
  unfold owns
  iintro ⟨⟨%f0, %hf0, H0⟩, ⟨%f1, %hf1, H1⟩, ⟨%d, %fs, -, HS⟩, Hk⟩
  obtain rfl := harg3.eq_unread hf0; obtain rfl := harg4.eq_unread hf1
  sl_exec (disch := first | exact h1 | exact h2)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS
  ipureintro
  -- the later of the two stores went through the whole box: the buffer reads back as its payload, whatever the
  -- reset left under it; and that payload's accumulator operand is the reset's zero block, loaded back through the
  -- same box
  refine (read_last_whole arg6.view _ off00 _ _ _).trans ?_
  sl_unfold_words
  simp only [View.readAt_eq_ld, harg3.read_unread, harg4.read_unread,
    View.ld_unit_zero (S := S512x512) off00, View.ld_unit_zero (S := S1024x512) off00,
    View.readCov_unit_zero (S := S512x1024) _ off00]

set_option maxHeartbeats 1000000 in
/-- 0 < k < 21: the accumulator, at s, ends one step further; the output buffer is not touched. -/
theorem run_mid (c : Dev nD) (E : Set ℕ) (i : grid1.Coords)
    (arg3 : Memref sig .tc .vmem S512x512 .bf16) (harg3 : arg3.IsWhole) (arg4 : Memref sig .tc .vmem S1024x512 .f32) (harg4 : arg4.IsWhole)
    (arg5 : Memref sig .tc .vmem S512x1024 .f32) (harg5 : arg5.IsWhole) (arg6 : Memref sig .tc .vmem S512x1024 .f32) (harg6 : arg6.IsWhole)
    (x0 : Vec F S512x512 .bf16) (x1 : Vec F S1024x512 .f32) (K : PUnit → sProp 𝕄)
    (h1 : ¬condFirst i) (h2 : ¬condLast i) (s : Vec F S512x1024 .f32) :
    iprop(owns (c : Thread nD τ) arg3 fullShare x0 ∗ owns (c : Thread nD τ) arg4 fullShare x1
        ∗ owns (c : Thread nD τ) arg6 fullShare s
        ∗ (iprop(owns (c : Thread nD τ) arg3 fullShare x0 ∗ owns (c : Thread nD τ) arg4 fullShare x1
            ∗ owns (c : Thread nD τ) arg6 fullShare (stepD x0 x1 s)) -∗ K ⟨⟩))
      ⊢ wp frame (wpE (defs₀ (F := F)) Variants.none c none) E (cc1__down_kernel i arg3 harg3 arg4 harg4 arg5 harg5 arg6 harg6) K := by
  simp only [cc1__down_kernel_eq_skeleton]; unfold cc1__down_kernel_skel
  unfold owns
  iintro ⟨⟨%f0, %hf0, H0⟩, ⟨%f1, %hf1, H1⟩, ⟨%fs, %hfs, HS⟩, Hk⟩
  obtain rfl := harg3.eq_unread hf0; obtain rfl := harg4.eq_unread hf1; obtain rfl := harg6.eq_unread hfs
  sl_exec (disch := first | exact h1 | exact h2)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS
  ipureintro
  -- the one store went through the whole box: the buffer reads back as its payload, over the three buffers as loaded
  refine (read_last_whole arg6.view _ off00 _ _ _).trans ?_
  simp only [View.readAt_eq_ld, harg3.read_unread, harg4.read_unread, harg6.read_unread,
    View.ld_unit_zero (S := S512x512) off00, View.ld_unit_zero (S := S1024x512) off00, View.ld_unit_zero (S := S512x1024) off00]

set_option maxHeartbeats 1000000 in
/-- k = 21: one step further, and the output buffer, at anything, ends at the finished accumulator. -/
theorem run_last (c : Dev nD) (E : Set ℕ) (i : grid1.Coords)
    (arg3 : Memref sig .tc .vmem S512x512 .bf16) (harg3 : arg3.IsWhole) (arg4 : Memref sig .tc .vmem S1024x512 .f32) (harg4 : arg4.IsWhole)
    (arg5 : Memref sig .tc .vmem S512x1024 .f32) (harg5 : arg5.IsWhole) (arg6 : Memref sig .tc .vmem S512x1024 .f32) (harg6 : arg6.IsWhole)
    (x0 : Vec F S512x512 .bf16) (x1 : Vec F S1024x512 .f32) (K : PUnit → sProp 𝕄)
    (h1 : ¬condFirst i) (h2 : condLast i) (s : Vec F S512x1024 .f32) :
    iprop(owns (c : Thread nD τ) arg3 fullShare x0 ∗ owns (c : Thread nD τ) arg4 fullShare x1
        ∗ (∃ d, owns (c : Thread nD τ) arg5 fullShare d)
        ∗ owns (c : Thread nD τ) arg6 fullShare s
        ∗ (iprop(owns (c : Thread nD τ) arg3 fullShare x0 ∗ owns (c : Thread nD τ) arg4 fullShare x1
            ∗ owns (c : Thread nD τ) arg5 fullShare (stepD x0 x1 s)
            ∗ owns (c : Thread nD τ) arg6 fullShare (stepD x0 x1 s)) -∗ K ⟨⟩))
      ⊢ wp frame (wpE (defs₀ (F := F)) Variants.none c none) E (cc1__down_kernel i arg3 harg3 arg4 harg4 arg5 harg5 arg6 harg6) K := by
  simp only [cc1__down_kernel_eq_skeleton]; unfold cc1__down_kernel_skel
  unfold owns
  iintro ⟨⟨%f0, %hf0, H0⟩, ⟨%f1, %hf1, H1⟩, ⟨%d, %fo, -, HO⟩, ⟨%fs, %hfs, HS⟩, Hk⟩
  obtain rfl := harg3.eq_unread hf0; obtain rfl := harg4.eq_unread hf1; obtain rfl := harg6.eq_unread hfs
  sl_exec (disch := first | exact h1 | exact h2)
  sl_step
  iapply Hk
  isplitl [H0]
  · iexists _; isplitr; · ipureintro; exact harg3.read_unread _
    iexact H0
  isplitl [H1]
  · iexists _; isplitr; · ipureintro; exact harg4.read_unread _
    iexact H1
  isplitl [HO]
  · iexists _; isplitr
    swap; · iexact HO
    ipureintro
    -- the output's one store went through the whole box, and its payload is the accumulator loaded back through
    -- the same box after the accumulator's own store: that store's payload
    refine (read_last_whole arg5.view _ off00 _ _ _).trans ?_
    sl_unfold_words
    simp only [View.readAt_eq_ld, harg3.read_unread, harg4.read_unread, harg6.read_unread,
      View.ld_unit_zero (S := S512x512) off00, View.ld_unit_zero (S := S1024x512) off00, View.ld_unit_zero (S := S512x1024) off00,
      View.readCov_unit_zero (S := S512x1024) _ off00]
  iexists _; isplitr
  swap; · iexact HS
  ipureintro
  -- the accumulator's one store went through the whole box: it reads back as its payload
  sl_unfold_words
  refine (read_last_whole arg6.view _ off00 _ _ _).trans ?_
  simp only [View.readAt_eq_ld, harg3.read_unread, harg4.read_unread, harg6.read_unread,
    View.ld_unit_zero (S := S512x512) off00, View.ld_unit_zero (S := S1024x512) off00, View.ld_unit_zero (S := S512x1024) off00]

end Cert.KernelIdeal.R1

end
-- ==== Proof.KI.R1Data.lean ====
/-
  The down-projection region's proof data, at the contents V the region is entered from. The grid is 8 x 4 x 22
  with the contraction axis innermost, so point t has k = t mod 22. The accumulator is carried from point to point:
  after point t it holds the partial sum over the contraction blocks 0..k of the output block the point belongs to.
  The output window is stored, and written back, only at the points with k = 21.
-/
import proofs.«140974_j30425548325397_1_alg».proof.Proof.KI.R1Body

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The conditions and the schedule in closed form -/

theorem hfirst : ∀ t : Fin cfg1.N, condFirst (grid1.coords t) ↔ t.val % 22 = 0 :=
  (by decide +kernel : ∀ t : Fin grid1.N, condFirst (grid1.coords t) ↔ t.val % 22 = 0)
theorem hlast : ∀ t : Fin cfg1.N, condLast (grid1.coords t) ↔ t.val % 22 = 21 :=
  (by decide +kernel : ∀ t : Fin grid1.N, condLast (grid1.coords t) ↔ t.val % 22 = 21)
theorem live0 : ∀ t : Fin cfg1.N, cfg1.idle 0 (grid1.coords t) = false := by decide +kernel
theorem live1 : ∀ t : Fin cfg1.N, cfg1.idle 1 (grid1.coords t) = false := by decide +kernel
theorem idle2 : ∀ t : Fin cfg1.N, ¬condLast (grid1.coords t) → cfg1.idle 2 (grid1.coords t) = true := by decide +kernel
theorem noflush2 : ∀ t : Fin cfg1.N, ¬condLast (grid1.coords t) → (cfg1.win 2).flush t = false := by decide +kernel
theorem live2 : ∀ t : Fin cfg1.N, condLast (grid1.coords t) → cfg1.idle 2 (grid1.coords t) = false := by decide +kernel

/-! ## The accumulator, point by point -/

/-- What the accumulator holds after the body at position n: restarted from zero where k = 0, else one step
    from what the point before left. -/
def acc (c : Dev nD) : (n : ℕ) → n < cfg1.N → Vec F S512x1024 .f32
  | 0, hn => stepD (iblk V c 0 ⟨0, hn⟩) (iblk V c 1 ⟨0, hn⟩) zeroD
  | n + 1, hn =>
    if (n + 1) % 22 = 0 then stepD (iblk V c 0 ⟨n + 1, hn⟩) (iblk V c 1 ⟨n + 1, hn⟩) zeroD
    else stepD (iblk V c 0 ⟨n + 1, hn⟩) (iblk V c 1 ⟨n + 1, hn⟩) (acc c n (Nat.lt_of_succ_lt hn))

theorem acc_first (c : Dev nD) (t : Fin cfg1.N) (h : t.val % 22 = 0) :
    acc V c t.val t.isLt = stepD (iblk V c 0 t) (iblk V c 1 t) zeroD := by
  obtain ⟨n, hn⟩ := t
  cases n with
  | zero => exact rfl
  | succ n => exact (if_pos h).trans rfl

theorem acc_next (c : Dev nD) (t : Fin cfg1.N) (h : ¬t.val % 22 = 0) :
    acc V c t.val t.isLt = stepD (iblk V c 0 t) (iblk V c 1 t) (acc V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The invariant between points -/

/-- The accumulator as a memref. -/
abbrev scD : Memref sig .tc .vmem S512x1024 .f32 := Memref.whole cc1_scratch0

/-- The core's other scoped buffers that are no staging buffer of this call (the first call's), each at anything. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- Separating conjunction is associative, as an equation. -/
private theorem sep_assoc_eq {M : Type} [URA M] (P Q R : sProp M) : iprop((P ∗ Q) ∗ R) = iprop(P ∗ Q ∗ R) :=
  BI.Entails.antisymm
    (show iprop((P ∗ Q) ∗ R) ⊢ iprop(P ∗ Q ∗ R) from by
      iintro ⟨⟨HP, HQ⟩, HR⟩
      isplitl [HP]; · iexact HP
      isplitl [HQ]; · iexact HQ
      iexact HR)
    (show iprop(P ∗ Q ∗ R) ⊢ iprop((P ∗ Q) ∗ R) from by
      iintro ⟨HP, HQ, HR⟩
      isplitr [HR]
      · isplitl [HP]; · iexact HP
        iexact HQ
      · iexact HR)

/-- The class invariant with the accumulator as a memref owned at some contents: the scoped rest is the ten other
    buffers and then the accumulator's, each at anything; a whole buffer owned as a memref is its points-to; the
    two sides then differ only in how the conjunction is bracketed. -/
theorem PhiA_eq (c : Dev nD) :
    (Pipeline.ΦA spec1 c : sProp 𝕄)
      = iprop((others (F := F) c ∗ (∃ d, owns (c : Thread nD τ) scD fullShare d)) ∗ (∃ r, prngReg c r)) := by
  unfold Pipeline.ΦA; rw [scopedRest1_eq]; simp only [scD, owns_whole]; unfold others
  simp only [sep_assoc_eq]
  rfl

/-- Before position n: at the first point every scoped buffer at anything; afterwards the accumulator at what the
    point before left. -/
def Phi (c : Dev nD) : (n : ℕ) → n ≤ cfg1.N → sProp 𝕄
  | 0, _ => Pipeline.ΦA spec1 c
  | n + 1, hn => iprop((others (F := F) c ∗ owns (c : Thread nD τ) scD fullShare (acc V c n hn)) ∗ (∃ r, prngReg c r))

/-- Before the first point: the class invariant. -/
private theorem Phi_zero (c : Dev nD) (n : ℕ) (h : n ≤ cfg1.N) (hz : n = 0) : Phi V c n h = Pipeline.ΦA spec1 c := by
  subst hz; rfl

/-- After point n (before point n + 1): the accumulator at that point's contents. -/
private theorem Phi_succ (c : Dev nD) (n : ℕ) (hn : n < cfg1.N) :
    Phi V c (n + 1) hn = iprop((others (F := F) c ∗ owns (c : Thread nD τ) scD fullShare (acc V c n hn)) ∗ (∃ r, prngReg c r)) := rfl

/-- Before a point that is not the first: the accumulator at what the point before left. -/
private theorem Phi_pos (c : Dev nD) (n : ℕ) (h : n ≤ cfg1.N) (hz : n ≠ 0) :
    Phi V c n h = iprop((others (F := F) c ∗ owns (c : Thread nD τ) scD fullShare (acc V c (n - 1) (by omega))) ∗ (∃ r, prngReg c r)) := by
  cases n with
  | zero => exact absurd rfl hz
  | succ n => rfl

/-! ## The proof data -/

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => acc V c t.val t.isLt
  Φ t := Phi V c t.val (Nat.le_of_lt_succ t.isLt)
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = acc V c t.val t.isLt := by dsimp only [dat]

/-- The invariant at a point's start, restated at the point's position. -/
private theorem Phi_castSucc (c : Dev nD) (t : Fin cfg1.N) :
    (dat V c).Φ t.castSucc = Phi V c t.val (Nat.le_of_lt t.isLt) := by
  dsimp only [dat]; simp only [Fin.coe_castSucc]

/-- An input window's current buffer holds its block at every point, fetched there or not: the body leaves the
    block in place, the window is uncut and never idle, and where it is not fetched its block index has not moved. -/
private theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)

/-- The same for the second input window. -/
private theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-- Each window's current buffer at point t, spelled as the pipeline passes it to the body, and its wholeness. -/
private abbrev ms0 (t : Fin cfg1.N) : Memref sig .tc .vmem S512x512 .bf16 := win1_0.stage (cfg1.slots t 0)
private abbrev hs0 (t : Fin cfg1.N) : (ms0 t).IsWhole := hstage1_0 ((cfg1.slots t 0).cast nbuf1_0)
private abbrev ms1 (t : Fin cfg1.N) : Memref sig .tc .vmem S1024x512 .f32 := win1_1.stage (cfg1.slots t 1)
private abbrev hs1 (t : Fin cfg1.N) : (ms1 t).IsWhole := hstage1_1 ((cfg1.slots t 1).cast nbuf1_1)
private abbrev ms2 (t : Fin cfg1.N) : Memref sig .tc .vmem S512x1024 .f32 := win1_2.stage (cfg1.slots t 2)
private abbrev hs2 (t : Fin cfg1.N) : (ms2 t).IsWhole := hstage1_2 ((cfg1.slots t 2).cast nbuf1_2)

/-- What the body is called with at point t, the windows one by one, -/
private def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

/-- and what it returns. -/
private def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

/-- The body at any point. The inputs' buffers hold their blocks. By the position k = t mod 22: at k = 0 the
    accumulator is handed over at anything (before the first point from the class invariant, later from what the
    point before left, forgotten) and comes back at one step from zero; at 0 < k < 21 it is handed over at what the
    point before left and comes back one step further; in both the output window is idle and not written back, so
    its buffer is returned as found. At k = 21 the output window is live: its buffer, at anything, comes back at
    the finished accumulator, which is what the proof data says the body leaves there. The core owes nothing
    throughout, and the other scoped buffers and the generator register pass through untouched. -/
private theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (ms0 t) fullShare ((dat V c).after 0 t) from by
    unfold Dat.leavesExact; rw [live0 t], after_0]
  rw [show (dat V c).leavesExact 1 t = owns (c : Thread nD τ) (ms1 t) fullShare ((dat V c).after 1 t) from by
    unfold Dat.leavesExact; rw [live1 t], after_1]
  have hN : t.val < 704 := lt_of_lt_of_eq t.isLt (show cfg1.N = 704 from N_1)
  by_cases h0 : t.val % 22 = 0
  · have h21 : ¬t.val % 22 = 21 := by omega
    have hc2 : ¬condLast (grid1.coords t) := fun h => h21 ((hlast t).mp h)
    rw [Dat.leavesExact_idle (dat V c) 2 t (idle2 t hc2) (noflush2 t hc2)]
    rw [acc_first V c t h0]
    by_cases hz : t.val = 0
    · rw [Phi_castSucc V c t, Phi_zero V c _ _ hz, PhiA_eq]
      iintro ⟨⟨⟨Ho, HS⟩, Hg⟩, Hw, ⟨%d0, H0⟩, ⟨%d1, H1⟩, ⟨%d2, H2⟩⟩
      iapply (run_first c Set.univ (grid1.coords t) (ms0 t) (hs0 t) (ms1 t) (hs1 t) (ms2 t) (hs2 t) scD (Memref.isWhole_whole _)
        (iblk V c 0 t) (iblk V c 1 t) _ ((hfirst t).mpr h0) hc2)
      isplitl [H0]; · iexact H0
      isplitl [H1]; · iexact H1
      isplitl [HS]; · iexact HS
      iintro ⟨H0, H1, HS⟩
      isplitl [Ho HS Hg]
      · isplitr [Hg]
        · isplitl [Ho]; · iexact Ho
          iexact HS
        · iexact Hg
      isplitl [Hw]; · iexact Hw
      isplitl [H0]; · iexact H0
      isplitl [H1]; · iexact H1
      iexists _; iexact H2
    · rw [Phi_castSucc V c t, Phi_pos V c _ _ hz]
      iintro ⟨⟨⟨Ho, HS⟩, Hg⟩, Hw, ⟨%d0, H0⟩, ⟨%d1, H1⟩, ⟨%d2, H2⟩⟩
      iapply (run_first c Set.univ (grid1.coords t) (ms0 t) (hs0 t) (ms1 t) (hs1 t) (ms2 t) (hs2 t) scD (Memref.isWhole_whole _)
        (iblk V c 0 t) (iblk V c 1 t) _ ((hfirst t).mpr h0) hc2)
      isplitl [H0]; · iexact H0
      isplitl [H1]; · iexact H1
      isplitl [HS]; · iexists _; iexact HS
      iintro ⟨H0, H1, HS⟩
      isplitl [Ho HS Hg]
      · isplitr [Hg]
        · isplitl [Ho]; · iexact Ho
          iexact HS
        · iexact Hg
      isplitl [Hw]; · iexact Hw
      isplitl [H0]; · iexact H0
      isplitl [H1]; · iexact H1
      iexists _; iexact H2
  · have hz : t.val ≠ 0 := fun e => h0 (by rw [e])
    have hc1 : ¬condFirst (grid1.coords t) := fun h => h0 ((hfirst t).mp h)
    by_cases h21 : t.val % 22 = 21
    · have hc2 : condLast (grid1.coords t) := (hlast t).mpr h21
      rw [show (dat V c).leavesExact 2 t = owns (c : Thread nD τ) (ms2 t) fullShare ((dat V c).after 2 t) from by
        unfold Dat.leavesExact; rw [live2 t hc2], after_2]
      rw [acc_next V c t h0]
      rw [Phi_castSucc V c t, Phi_pos V c _ _ hz]
      iintro ⟨⟨⟨Ho, HS⟩, Hg⟩, Hw, ⟨%d0, H0⟩, ⟨%d1, H1⟩, ⟨%d2, H2⟩⟩
      iapply (run_last c Set.univ (grid1.coords t) (ms0 t) (hs0 t) (ms1 t) (hs1 t) (ms2 t) (hs2 t) scD (Memref.isWhole_whole _)
        (iblk V c 0 t) (iblk V c 1 t) _ hc1 hc2 (acc V c (t.val - 1) (Nat.lt_of_le_of_lt (Nat.sub_le _ _) t.isLt)))
      isplitl [H0]; · iexact H0
      isplitl [H1]; · iexact H1
      isplitl [H2]; · iexists _; iexact H2
      isplitl [HS]; · iexact HS
      iintro ⟨H0, H1, H2, HS⟩
      isplitl [Ho HS Hg]
      · isplitr [Hg]
        · isplitl [Ho]; · iexact Ho
          iexact HS
        · iexact Hg
      isplitl [Hw]; · iexact Hw
      isplitl [H0]; · iexact H0
      isplitl [H1]; · iexact H1
      iexact H2
    · have hc2 : ¬condLast (grid1.coords t) := fun h => h21 ((hlast t).mp h)
      rw [Dat.leavesExact_idle (dat V c) 2 t (idle2 t hc2) (noflush2 t hc2)]
      rw [acc_next V c t h0]
      rw [Phi_castSucc V c t, Phi_pos V c _ _ hz]
      iintro ⟨⟨⟨Ho, HS⟩, Hg⟩, Hw, ⟨%d0, H0⟩, ⟨%d1, H1⟩, ⟨%d2, H2⟩⟩
      iapply (run_mid c Set.univ (grid1.coords t) (ms0 t) (hs0 t) (ms1 t) (hs1 t) (ms2 t) (hs2 t) scD (Memref.isWhole_whole _)
        (iblk V c 0 t) (iblk V c 1 t) _ hc1 hc2 (acc V c (t.val - 1) (Nat.lt_of_le_of_lt (Nat.sub_le _ _) t.isLt)))
      isplitl [H0]; · iexact H0
      isplitl [H1]; · iexact H1
      isplitl [HS]; · iexact HS
      iintro ⟨H0, H1, HS⟩
      isplitl [Ho HS Hg]
      · isplitr [Hg]
        · isplitl [Ho]; · iexact Ho
          iexact HS
        · iexact Hg
      isplitl [Hw]; · iexact Hw
      isplitl [H0]; · iexact H0
      isplitl [H1]; · iexact H1
      iexists _; iexact H2

/-- The body obligation at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = Phi V c 0 (Nat.zero_le _) from rfl, Phi_zero V c 0 _ rfl]
  try exact Idealize.SL.BI.Entails.refl _

/-- After any point but the first the invariant gives the class invariant back: the accumulator's named contents
    are forgotten. -/
private theorem Phi_out (c : Dev nD) (t : Fin (cfg1.N + 1)) (ht : t.val ≠ 0) : (dat V c).Φ t ⊢ Pipeline.ΦA spec1 c := by
  rw [show (dat V c).Φ t = Phi V c t.val (Nat.le_of_lt_succ t.isLt) from rfl, Phi_pos V c _ _ ht, PhiA_eq]
  iintro ⟨⟨Ho, HS⟩, Hg⟩
  isplitr [Hg]
  · isplitl [Ho]; · iexact Ho
    iexists _; iexact HS
  · iexact Hg

/-- After the last point the accumulator's contents are forgotten. -/
theorem hout (c : Dev nD) : (dat V c).Φ (Fin.last cfg1.N) ⊢ Pipeline.ΦA spec1 c :=
  Phi_out V c _ (by rw [Fin.val_last]; have : cfg1.N = 704 := N_1; omega)

end Cert.KernelIdeal.R1

end
-- ==== Proof.KI.Regs.lean ====
/-
  The two kernel regions as segments of @main, and the frame.

  Between two items of @main a core holds every unscoped buffer whole. Region 0 is entered from the contents the six
  host stretches before it leave, reads x (merged), the padded gate and up weights, and may change only the hidden
  array; region 1 is entered from there, reads the hidden array and the padded down weights, and may change only
  the projected array. What each leaves in its output array is what its write-backs fold to. Beside the buffers a
  core carries its generator register at some state and owes nothing.
-/
import proofs.«140974_j30425548325397_1_alg».proof.Proof.KI.R0Data
import proofs.«140974_j30425548325397_1_alg».proof.Proof.KI.R1Data
import proofs.«140974_j30425548325397_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The contents at the regions' boundaries -/

/-- What region 0 is entered from, read at the TensorCore's references. -/
abbrev Vin0 : (c : Dev nD) → (b : Ref sig .tc) → Buf (Elt F) ((c : Thread nD τ).loc b) := fun c b => V6 m c b
/-- What region 0 leaves in the hidden array: its write-backs folded. -/
def arr6 (c : Dev nD) : Buf (Elt F) ((c : Thread nD τ).loc main_v6) := (R0.dat (Vin0 m) c).arrAt 3 cfg0.N
/-- The contents after region 0. -/
abbrev W7 (c : Dev nD) : Valuation τ sig (Elt F) := Function.update (V6 m c) main_v6 (arr6 m c)
/-- What region 1 is entered from. -/
abbrev Vin1 : (c : Dev nD) → (b : Ref sig .tc) → Buf (Elt F) ((c : Thread nD τ).loc b) := fun c b => W7 m c b
/-- What region 1 leaves in the projected array. -/
def arr7 (c : Dev nD) : Buf (Elt F) ((c : Thread nD τ).loc main_v7) := (R1.dat (Vin1 m) c).arrAt 2 cfg1.N
/-- The contents after region 1. -/
abbrev W8 (c : Dev nD) : Valuation τ sig (Elt F) := Function.update (W7 m c) main_v7 (arr7 m c)

/-- What the regions leave, as the table the boundaries' valuations are written over. -/
def outs : Outs (F := F) := fun n r c => if n = 7 then W7 m c r else if n = 8 then W8 m c r else V0 m c r

theorem outs7 (c : Dev nD) : outs m 7 main_v6 c = arr6 m c := by
  unfold outs; rw [if_pos rfl]; exact Function.update_self ..
theorem V7_eq (c : Dev nD) : V7 m (outs m) c = W7 m c := by
  show Function.update (V6 m c) main_v6 (outs m 7 main_v6 c) = Function.update (V6 m c) main_v6 (arr6 m c)
  rw [outs7]
theorem outs8 (c : Dev nD) : outs m 8 main_v7 c = arr7 m c := by
  unfold outs; rw [if_neg (by decide), if_pos rfl]; exact Function.update_self ..
theorem V8_eq (c : Dev nD) : V8 m (outs m) c = W8 m c := by
  show Function.update (V7 m (outs m) c) main_v7 (outs m 8 main_v7 c) = Function.update (W7 m c) main_v7 (arr7 m c)
  rw [outs8, V7_eq]

/-! ## The proof data family -/

def pdats : (p : Fin 2) → (c : Dev nD) → Dat τ (Elt F) Unit ℕ (UR sig nD τ) ℕ (Pipeline.pin (pcfgs (F := F)) adm p) c
  | ⟨0, _⟩ => fun c => R0.dat (Vin0 m) c
  | ⟨1, _⟩ => fun c => R1.dat (Vin1 m) c

abbrev L : GSem nD τ sig → Finset Unit := fun _ => ∅
abbrev lv : GSem nD τ sig → Unit → ℕ := fun _ _ => 0
/-- What rides beside the buffers: the generator register at some state, nothing owed. -/
abbrev R (c : Dev nD) : sProp 𝕄 := iprop((∃ r, prngReg c r) ∗ ∃ W, owes (c : Thread nD τ) (0 : CellTallies nD τ sig Unit) W)

/-- Region 0 leaves each of its arrays at the next boundary's contents, and every other buffer as entered. -/
theorem hF0 (c : Dev nD) (w : Fin cfg0.W) : (pdats m 0 c).arrAt w cfg0.N = (fun b => V7 m (outs m) c b : (b : Ref sig .tc) → Buf (Elt F) ((c : Thread nD τ).loc b)) (Pipeline.arrRef spec0 w) := by
  match w with
  | ⟨0, _⟩ => exact (((R0.dat (Vin0 m) c).arrAt_in 0 rfl _).trans (R0.A_eq (Vin0 m) c 0)).trans (V7_of m (outs m) c main_v0 (by decide)).symm
  | ⟨1, _⟩ => exact (((R0.dat (Vin0 m) c).arrAt_in 1 rfl _).trans (R0.A_eq (Vin0 m) c 1)).trans (V7_of m (outs m) c main_v3 (by decide)).symm
  | ⟨2, _⟩ => exact (((R0.dat (Vin0 m) c).arrAt_in 2 rfl _).trans (R0.A_eq (Vin0 m) c 2)).trans (V7_of m (outs m) c main_v4 (by decide)).symm
  | ⟨3, _⟩ =>
    show (R0.dat (Vin0 m) c).arrAt 3 cfg0.N = V7 m (outs m) c main_v6
    rw [V7_eq]; symm; exact Function.update_self ..
theorem hrest0 (c : Dev nD) : ∀ b, b ∉ Finset.univ.image (Pipeline.arrRef spec0) → (fun b => V7 m (outs m) c b : (b : Ref sig .tc) → Buf (Elt F) ((c : Thread nD τ).loc b)) b = Vin0 m c b :=
  fun b hb => V7_of m (outs m) c b (by
    intro h
    exact hb ((Finset.mem_image (f := Pipeline.arrRef spec0)).mpr ⟨(3 : Fin cfg0.W), Finset.mem_univ _, ((List.mem_singleton.mp h).symm : Pipeline.arrRef spec0 3 = b)⟩))
theorem hF1 (c : Dev nD) (w : Fin cfg1.W) : (pdats m 1 c).arrAt w cfg1.N = (fun b => V8 m (outs m) c b : (b : Ref sig .tc) → Buf (Elt F) ((c : Thread nD τ).loc b)) (Pipeline.arrRef spec1 w) := by
  match w with
  | ⟨0, _⟩ =>
    refine (((R1.dat (Vin1 m) c).arrAt_in 0 rfl _).trans (R1.A_eq (Vin1 m) c 0)).trans ?_
    show W7 m c main_v6 = V8 m (outs m) c main_v6
    rw [V8_of m (outs m) c main_v6 (by decide), V7_eq]
  | ⟨1, _⟩ =>
    refine (((R1.dat (Vin1 m) c).arrAt_in 1 rfl _).trans (R1.A_eq (Vin1 m) c 1)).trans ?_
    show W7 m c main_v5 = V8 m (outs m) c main_v5
    rw [V8_of m (outs m) c main_v5 (by decide), V7_eq]
  | ⟨2, _⟩ =>
    show (R1.dat (Vin1 m) c).arrAt 2 cfg1.N = V8 m (outs m) c main_v7
    rw [V8_eq]; symm; exact Function.update_self ..
theorem hrest1 (c : Dev nD) : ∀ b, b ∉ Finset.univ.image (Pipeline.arrRef spec1) → (fun b => V8 m (outs m) c b : (b : Ref sig .tc) → Buf (Elt F) ((c : Thread nD τ).loc b)) b = Vin1 m c b :=
  fun b hb => (V8_of m (outs m) c b (by
    intro h
    exact hb ((Finset.mem_image (f := Pipeline.arrRef spec1)).mpr ⟨(2 : Fin cfg1.W), Finset.mem_univ _, ((List.mem_singleton.mp h).symm : Pipeline.arrRef spec1 2 = b)⟩))).trans (by rw [V7_eq])

/-! ## The regions as segments -/

-- a library lemma stated over the pinned configuration unifies with the printed one only when unification may
-- unfold plain definitions in a metavariable's type
set_option backward.isDefEq.respectTransparency.types false in
/-- Region 0 over the thread state: its arrays are split out of the unscoped buffers at entry and put back at the
    exit contents; the generator register goes into the class invariant and comes back; nothing is owed; the kernel
    has no semaphore of its own. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (R0.body_obligation (Vin0 m) c).loose
  hwaits := Pipeline.hwaits_of_owed_zero _ _ _ _ L lv 0 fun _ _ => rfl
  pre c := iprop(StableHlo.held (c : Thread nD τ) (Pipeline.ucRefs τ sig) (V6 m c) ∗ R c)
  post c := iprop(StableHlo.held (c : Thread nD τ) (Pipeline.ucRefs τ sig) (V7 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have hforget : (pdats m 0 c).Φ (Fin.last _) ⊢ Pipeline.ΦA spec0 c := R0.hout (Vin0 m) c
    unfold Pipeline.ΦA at hforget
    iintro HΦ
    ihave H := hforget $$ HΦ
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (fun b => V7 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 1 over the thread state: its arrays are split out of the unscoped buffers at entry and put back at the
    exit contents; the generator register goes into the class invariant and comes back; nothing is owed; the kernel
    has no semaphore of its own. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (R1.body_obligation (Vin1 m) c).loose
  hwaits := Pipeline.hwaits_of_owed_zero _ _ _ _ L lv 1 fun _ _ => rfl
  pre c := iprop(StableHlo.held (c : Thread nD τ) (Pipeline.ucRefs τ sig) (V7 m (outs m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none, V7_eq]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have hforget : (pdats m 1 c).Φ (Fin.last _) ⊢ Pipeline.ΦA spec1 c := R1.hout (Vin1 m) c
    unfold Pipeline.ΦA at hforget
    iintro HΦ
    ihave H := hforget $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (fun b => V8 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## What the launch deals -/

abbrev u₀ : UR sig nD τ := initOf (Pipeline.cells cfgs cellOf_inj) (Pipeline.launchToks cfgs cellOf_inj)

/-- The launch element yields the pipelines' ghost state; no other ghost resource is dealt. -/
theorem hu₀ : (ownU u₀ : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- At launch every core has its generator register and owes nothing. -/
theorem hE0 (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

theorem hE2 (c : Dev nD) : R (F := F) c ⊢ (iprop(∃ W, owes (c : Thread nD τ) (0 : CellTallies nD τ sig Unit) W) : sProp 𝕄) := by
  iintro ⟨-, HO⟩; iexact HO

/-! ## The frame -/

/-- Every weakly fair execution of @main terminates, nothing faulting, with the three arguments as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_cond m (EP := emb₁) (ι := ()) (𝒱₀ := Variants.none) (L := L) (lv := lv) (hL := fun _ _ => rfl) (ρ := ρ) (outs := outs m)
    (pdats := pdats m) (O₀ := 0) (G := fun _ => (BI.emp : sProp 𝕄)) (u₀ := u₀) (hu₀ := hu₀ (F := F))
    (E := fun _ c => R (F := F) c) (hE0 := hE0 (F := F) ρ) (hE2 := hE2 (F := F))
    (R0 := reg0 m) (hpre0 := fun _ => .rfl) (hpost0 := fun _ => .rfl)
    (R1 := reg1 m) (hpre1 := fun _ => .rfl) (hpost1 := fun _ => .rfl)

end Cert.KernelIdeal.Regs

end
-- ==== Proof.KI.Spec.lean ====
/-
  The mathematics of the certificate, free of any program.

  Both programs compute, on the extended reals, a gated two-layer product: with x an M x H matrix (M = 2·2048 rows,
  H = 4096), w1 a 2I x H matrix (I = 11008) whose first I rows are the gate weights and whose last I rows are the up
  weights, and w2 an H x I matrix,
      out[m, h] = Σ_{i < I} (silu(Σ_a x[m, a]·w1[i, a]) · (Σ_a x[m, a]·w1[I + i, a])) · w2[h, i],   silu(g) = g · 1/(1 + e^(-g)).
  The kernel pads the I axis with 256 zero rows (columns of w2) to 11264 and contracts over the padded axis; a padded
  term is a product with zero and vanishes on the extended reals whatever the other factor is, so no finiteness is used.
-/
import Idealize.ShloMosaic.PureOps.Ideal
import Idealize.ShloMosaic.PureOps.Ideal.Laws
import Idealize.ShloMosaic.Lib.ValueIdx
import Mathlib.Algebra.BigOperators.Fin

noncomputable section

namespace Cert.Spec

open Idealize.ShloMosaic Idealize.ShloMosaic.ValueIdx

abbrev SX3 : Shape := ⟨3, ![2, 2048, 4096]⟩
abbrev SW1 : Shape := ⟨2, ![22016, 4096]⟩
abbrev SW2 : Shape := ⟨2, ![4096, 11008]⟩
abbrev SX2 : Shape := ⟨2, ![4096, 4096]⟩
abbrev SWP : Shape := ⟨2, ![11264, 4096]⟩
abbrev SWD : Shape := ⟨2, ![4096, 11264]⟩

/-- silu on the extended reals, as both programs spell it: g times the logistic of g. -/
def silu (g : EReal) : EReal := g * Ideal.logistic g
/-- One entry of the gated hidden layer from its gate and up pre-activations. -/
def gated (g u : EReal) : EReal := silu g * u

/-! ## The kernel's stages, each as one function of the arrays it reads -/

/-- The hidden layer over the padded axis, entry (p, q): rows of the padded gate and up weights against row p of x. -/
def hpadAt (X : FVec Ideal SX2 .f32) (WG WU : FVec Ideal SWP .f32) (p : Fin 4096) (q : Fin 11264) : EReal :=
  gated (∑ a : Fin 4096, X (ix2 p a) * WG (ix2 q a)) (∑ a : Fin 4096, X (ix2 p a) * WU (ix2 q a))
def hpad (X : FVec Ideal SX2 .f32) (WG WU : FVec Ideal SWP .f32) : FVec Ideal SWD .bf16 :=
  fun j => hpadAt X WG WU (j 0) (j 1)

/-- The down projection over the padded axis, entry (p, q). -/
def out2At (H : FVec Ideal SWD .bf16) (WD : FVec Ideal SWD .f32) (p q : Fin 4096) : EReal :=
  ∑ i : Fin 11264, H (ix2 p i) * WD (ix2 q i)
def out2 (H : FVec Ideal SWD .bf16) (WD : FVec Ideal SWD .f32) : FVec Ideal SX2 .f32 :=
  fun j => out2At H WD (j 0) (j 1)

/-! ## The host operations around the two calls -/

/-- x with its two leading axes merged: row m = b·2048 + s. -/
def x2 (x : FVec Ideal SX3 .f32) : FVec Ideal SX2 .f32 :=
  fun j => x (ix3 ⟨(j 0).val / 2048, by have h : (j 0).val < 4096 := (j 0).isLt; omega⟩ ⟨(j 0).val % 2048, Nat.mod_lt _ (by norm_num)⟩ (j 1))
/-- Rows off .. off + 11007 of w1, followed by 256 zero rows. -/
def wpad (w1 : FVec Ideal SW1 .f32) (off : Nat) (hoff : off + 11008 ≤ 22016) : FVec Ideal SWP .f32 :=
  fun j => if h : (j 0).val < 11008 then w1 (ix2 ⟨off + (j 0).val, by omega⟩ (j 1)) else 0
/-- w2 followed by 256 zero columns. -/
def wdpad (w2 : FVec Ideal SW2 .f32) : FVec Ideal SWD .f32 :=
  fun j => if h : (j 1).val < 11008 then w2 (ix2 (j 0) ⟨(j 1).val, h⟩) else 0
/-- The result with its leading axis split back: entry (b, s, h) is row b·2048 + s. -/
def y3 (y : FVec Ideal SX2 .f32) : FVec Ideal SX3 .f32 :=
  fun j => y (ix2 ⟨(j 0).val * 2048 + (j 1).val, by have h0 : (j 0).val < 2 := (j 0).isLt; have h1 : (j 1).val < 2048 := (j 1).isLt; omega⟩ (j 2))

/-- What the kernel's program computes from its three arguments. -/
def kernelValue (x : FVec Ideal SX3 .f32) (w1 : FVec Ideal SW1 .f32) (w2 : FVec Ideal SW2 .f32) : FVec Ideal SX3 .f32 :=
  y3 (out2 (hpad (x2 x) (wpad w1 0 (by norm_num)) (wpad w1 11008 (by norm_num))) (wdpad w2))

/-! ## The reference -/

/-- The reference's result, entry (b, s, h). -/
def G (x : FVec Ideal SX3 .f32) (w1 : FVec Ideal SW1 .f32) (w2 : FVec Ideal SW2 .f32) : FVec Ideal SX3 .f32 :=
  fun j => ∑ i : Fin 11008,
    gated (∑ a : Fin 4096, x (ix3 (j 0) (j 1) a) * w1 (ix2 ⟨i.val, by have := i.isLt; omega⟩ a))
          (∑ a : Fin 4096, x (ix3 (j 0) (j 1) a) * w1 (ix2 ⟨11008 + i.val, by have := i.isLt; omega⟩ a))
      * w2 (ix2 (j 2) i)

/-! ## The two facts the comparison rests on -/

/-- A sum whose terms vanish from position n on is the sum of its first n terms. -/
theorem sum_pad {n m : Nat} (hnm : n ≤ m) (f : Fin m → EReal) (hz : ∀ i : Fin m, n ≤ i.val → f i = 0) :
    ∑ i : Fin m, f i = ∑ i : Fin n, f (Fin.castLE hnm i) := by
  obtain ⟨k, rfl⟩ := Nat.exists_eq_add_of_le hnm
  rw [Fin.sum_univ_add]
  have hk : ∑ i : Fin k, f (Fin.natAdd n i) = 0 :=
    Finset.sum_eq_zero (fun i _ => hz _ (by simp [Fin.natAdd]))
  rw [hk, add_zero]
  rfl

/-- The merged row b·2048 + s of x is row (b, s) of x. -/
theorem x2_merge (x : FVec Ideal SX3 .f32) (b : Fin 2) (s : Fin 2048) (a : Fin 4096)
    (hm : b.val * 2048 + s.val < 4096) :
    x2 x (ix2 ⟨b.val * 2048 + s.val, hm⟩ a) = x (ix3 b s a) := by
  have hb : b.val < 2 := b.isLt
  have hs : s.val < 2048 := s.isLt
  have e0 : (b.val * 2048 + s.val) / 2048 = b.val := by omega
  have e1 : (b.val * 2048 + s.val) % 2048 = s.val := by omega
  unfold x2
  congr 1
  funext d
  match d with
  | ⟨0, _⟩ => exact Fin.ext e0
  | ⟨1, _⟩ => exact Fin.ext e1
  | ⟨2, _⟩ => rfl

/-- A row below 11008 of the padded weights is the row of w1 at the offset. -/
theorem wpad_lo (w1 : FVec Ideal SW1 .f32) (off : Nat) (hoff : off + 11008 ≤ 22016) (q : Fin 11264) (a : Fin 4096)
    (hq : q.val < 11008) :
    wpad w1 off hoff (ix2 q a) = w1 (ix2 ⟨off + q.val, by omega⟩ a) := by
  unfold wpad
  exact dif_pos hq

/-- At offset 0 that row is row q itself. -/
theorem wpad_lo0 (w1 : FVec Ideal SW1 .f32) (hoff : 0 + 11008 ≤ 22016) (q : Fin 11264) (a : Fin 4096)
    (hq : q.val < 11008) :
    wpad w1 0 hoff (ix2 q a) = w1 (ix2 ⟨q.val, by omega⟩ a) := by
  rw [wpad_lo w1 0 hoff q a hq]
  have e : (⟨0 + q.val, by omega⟩ : Fin 22016) = ⟨q.val, by omega⟩ := Fin.ext (Nat.zero_add _)
  rw [e]

/-- A column below 11008 of the padded down weights is the column of w2. -/
theorem wdpad_lo (w2 : FVec Ideal SW2 .f32) (p : Fin 4096) (q : Fin 11264) (hq : q.val < 11008) :
    wdpad w2 (ix2 p q) = w2 (ix2 p ⟨q.val, hq⟩) := by
  unfold wdpad
  exact dif_pos hq

/-- A column from 11008 on of the padded down weights is zero. -/
theorem wdpad_hi (w2 : FVec Ideal SW2 .f32) (p : Fin 4096) (q : Fin 11264) (hq : 11008 ≤ q.val) :
    wdpad w2 (ix2 p q) = 0 := by
  unfold wdpad
  exact dif_neg (by show ¬ q.val < 11008; omega)

/-- The two arrangements are one function: the padded terms vanish, the merged row index splits back. -/
theorem kernelValue_eq_G (x : FVec Ideal SX3 .f32) (w1 : FVec Ideal SW1 .f32) (w2 : FVec Ideal SW2 .f32) :
    kernelValue x w1 w2 = G x w1 w2 := by
  funext j
  have h0 : (j 0).val < 2 := (j 0).isLt
  have h1 : (j 1).val < 2048 := (j 1).isLt
  have hm : (j 0).val * 2048 + (j 1).val < 4096 := by omega
  show ∑ i : Fin 11264,
      hpadAt (x2 x) (wpad w1 0 (by norm_num)) (wpad w1 11008 (by norm_num)) ⟨(j 0).val * 2048 + (j 1).val, hm⟩ i
        * wdpad w2 (ix2 (j 2) i) = _
  rw [sum_pad (show 11008 ≤ 11264 by norm_num) _ (fun i hi => by rw [wdpad_hi w2 (j 2) i hi, mul_zero])]
  unfold G
  refine Finset.sum_congr rfl (fun i _ => ?_)
  have hi : i.val < 11008 := i.isLt
  have hq : (Fin.castLE (show 11008 ≤ 11264 by norm_num) i).val < 11008 := hi
  rw [wdpad_lo w2 (j 2) _ hq]
  unfold hpadAt
  simp only [x2_merge x (j 0) (j 1) _ hm, wpad_lo0 w1 _ _ _ hq, wpad_lo w1 11008 _ _ _ hq]
  rfl

end Cert.Spec

end
-- ==== Proof.LibPlainDot.lean ====
/-
  A plain matrix product read at an entry.

  For the dimension numbers `⟨[1], [0], [0], [1], [], []⟩` (an M×K operand times a K×N operand, no batch axis), the
  product accumulated into a zero array has, at entry (p, q), the value Σ_k lhs (p, k) · rhs (k, q) on the extended
  reals: no rounding and no order of summation is left in it. The statement is generic in the three extents and in the
  operands' float formats (a change of format is the identity on the extended reals), so it serves every plain product
  of a kernel body; a printed dimension record with these six lists IS `DotDims.plain M K N` (its well-formedness
  proof is a proposition), so the lemma applies to it as it stands.
-/
import Idealize.ShloMosaic.PureOps.Ideal.Laws
import Idealize.ShloMosaic.Lib.ValueIdx

namespace Idealize.ShloMosaic.PlainDot

open Idealize.ShloMosaic Idealize.ShloMosaic.ValueIdx

/-- The left operand's row coordinate at output entry `i` is `i`'s row. -/
theorem lhs_row (M K N : Nat) (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The left operand's column coordinate is the contraction index. -/
theorem lhs_col (M K N : Nat) (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row coordinate is the contraction index. -/
theorem rhs_row (M K N : Nat) (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column coordinate at output entry `i` is `i`'s column. -/
theorem rhs_col (M K N : Nat) (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain M×K by K×N product into the zero array, at entry (p, q), is `Σ_k lhs (p, k) · rhs (k, q)`. -/
theorem matmul_zero_apply {φ₁ φ₂ : FTy} (M K N : Nat) (lhs : FVec Ideal ⟨2, ![M, K]⟩ φ₁) (rhs : FVec Ideal ⟨2, ![K, N]⟩ φ₂)
    (p : Fin M) (q : Fin N) :
    FloatOps.matmul (DotDims.plain M K N) none lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

end Idealize.ShloMosaic.PlainDot
-- ==== Proof.KI.R0Value.lean ====
/-
  What the gate/up region leaves in the hidden array, at the ideal instance: entry (p, q) is silu(gate)·up of the
  full contractions of row p of x against row q of the padded gate and up weights. The accumulators at the last
  contraction step of an output block hold the sums of the four partial products, which regroup to the full sums;
  the blocks written back at those points tile the array.
-/
import proofs.«140974_j30425548325397_1_alg».proof.Proof.KI.R0Data
import proofs.«140974_j30425548325397_1_alg».proof.Proof.KI.Spec
import proofs.«140974_j30425548325397_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

/-! ## The body's arithmetic at an entry -/

/-- The zero block an accumulator restarts from is 0 at every entry. -/
theorem zeroG_apply (r q : Fin 512) : (zeroG (F := Ideal)) (ix2 r q) = 0 := by
  show (k0_pay1 (F := Ideal)) (ix2 r q) = 0
  unfold k0_pay1
  rw [shapeCast_self]
  exact Ideal.ofBits_zero_f32

theorem zeroU_apply (r q : Fin 512) : (zeroU (F := Ideal)) (ix2 r q) = 0 := by
  show (k0_pay2 (F := Ideal)) (ix2 r q) = 0
  unfold k0_pay2
  rw [shapeCast_self]
  exact Ideal.ofBits_zero_f32

/-- One step of the gate accumulator at entry (r, q): what it held plus the product of row r of the x block with
    row q of the weight block (the weight block enters transposed, and a change of float format is the identity). -/
theorem stepG_apply (x0 x1 : Vec Ideal S512x1024 .f32) (s : Vec Ideal S512x512 .f32) (r q : Fin 512) :
    stepG x0 x1 s (ix2 r q) = s (ix2 r q) + ∑ a : Fin 1024, x0 (ix2 r a) * x1 (ix2 q a) := by
  show k0_pay4 x0 x1 s (ix2 r q) = _
  unfold k0_pay4 k0_pay3
  rw [shapeCast_self, shapeCast_self, shapeCast_self]
  refine congrArg (s (ix2 r q) + ·) ?_
  refine (Idealize.ShloMosaic.PlainDot.matmul_zero_apply 512 1024 512 _ _ r q).trans ?_
  refine Finset.sum_congr rfl fun a _ => ?_
  refine congrArg (x0 (ix2 r a) * ·) ?_
  exact transpose_ix2_apply _ _ a q

theorem stepU_apply (x0 x2 : Vec Ideal S512x1024 .f32) (s : Vec Ideal S512x512 .f32) (r q : Fin 512) :
    stepU x0 x2 s (ix2 r q) = s (ix2 r q) + ∑ a : Fin 1024, x0 (ix2 r a) * x2 (ix2 q a) := by
  show k0_pay5 x0 x2 s (ix2 r q) = _
  unfold k0_pay5 k0_pay3
  rw [shapeCast_self, shapeCast_self, shapeCast_self]
  refine congrArg (s (ix2 r q) + ·) ?_
  refine (Idealize.ShloMosaic.PlainDot.matmul_zero_apply 512 1024 512 _ _ r q).trans ?_
  refine Finset.sum_congr rfl fun a _ => ?_
  refine congrArg (x0 (ix2 r a) * ·) ?_
  exact transpose_ix2_apply _ _ a q

/-- The output block at an entry: the gated product of the two finished accumulators there. -/
theorem outBlk_apply (g u : Vec Ideal S512x512 .f32) (r q : Fin 512) :
    outBlk g u (ix2 r q) = Cert.Spec.gated (g (ix2 r q)) (u (ix2 r q)) := by
  show k0_pay6 g u (ix2 r q) = _
  unfold k0_pay6
  rfl

/-! ## The index maps, decided once over the grid

Point t = (mi·22 + ni)·4 + k: the x block sits at block row mi = t / 88 and block column k = t mod 4, a weight block at
block row ni = (t / 4) mod 22 and block column k, the output block at (mi, ni). -/

theorem idx_facts : ∀ t : Fin cfg0.N,
    win0_0.index t (0 : Fin 2) = t.val / 88 ∧ win0_0.index t (1 : Fin 2) = t.val % 4
    ∧ win0_1.index t (0 : Fin 2) = t.val / 4 % 22 ∧ win0_1.index t (1 : Fin 2) = t.val % 4
    ∧ win0_2.index t (0 : Fin 2) = t.val / 4 % 22 ∧ win0_2.index t (1 : Fin 2) = t.val % 4
    ∧ win0_3.index t (0 : Fin 2) = t.val / 88 ∧ win0_3.index t (1 : Fin 2) = t.val / 4 % 22 :=
  (by decide +kernel : ∀ t : Fin grid0.N, _)

/-- The grid has 704 points. -/
theorem N_eq : cfg0.N = 704 := N_0

/-! ## The input blocks read off their arrays

A block's entry (r, a) is the array's entry at block index × block size + the coordinate inside the block, per axis. -/

theorem xblk_apply (V : (c : Dev nD) → (b : Ref sig .tc) → Buf (Elt Ideal) ((c : Thread nD τ).loc b)) (c : Dev nD)
    (t : Fin cfg0.N) (r : Fin 512) (a : Fin 1024) (p b : Fin 4096)
    (hp : p.val = t.val / 88 * 512 + r.val) (hb : b.val = t.val % 4 * 1024 + a.val) :
    (iblk (F := Ideal) V c 0 t : Vec Ideal S512x1024 .f32) (ix2 r a) = (V c main_v0 : FVec Ideal Cert.Spec.SX2 .f32) (ix2 p b) := by
  obtain ⟨e0, e1, -, -, -, -, -, -⟩ := idx_facts t
  unfold iblk
  rw [View.read_apply]
  show V c main_v0 _ = V c main_v0 _
  refine congrArg _ ?_
  funext d
  apply Fin.ext
  match d with
  | ⟨0, _⟩ => show win0_0.index t (0 : Fin 2) * 512 + 1 * r.val = p.val; omega
  | ⟨1, _⟩ => show win0_0.index t (1 : Fin 2) * 1024 + 1 * a.val = b.val; omega

theorem wgblk_apply (V : (c : Dev nD) → (b : Ref sig .tc) → Buf (Elt Ideal) ((c : Thread nD τ).loc b)) (c : Dev nD)
    (t : Fin cfg0.N) (q : Fin 512) (a : Fin 1024) (qq : Fin 11264) (b : Fin 4096)
    (hq : qq.val = t.val / 4 % 22 * 512 + q.val) (hb : b.val = t.val % 4 * 1024 + a.val) :
    (iblk (F := Ideal) V c 1 t : Vec Ideal S512x1024 .f32) (ix2 q a) = (V c main_v3 : FVec Ideal Cert.Spec.SWP .f32) (ix2 qq b) := by
  obtain ⟨-, -, e0, e1, -, -, -, -⟩ := idx_facts t
  unfold iblk
  rw [View.read_apply]
  show V c main_v3 _ = V c main_v3 _
  refine congrArg _ ?_
  funext d
  apply Fin.ext
  match d with
  | ⟨0, _⟩ => show win0_1.index t (0 : Fin 2) * 512 + 1 * q.val = qq.val; omega
  | ⟨1, _⟩ => show win0_1.index t (1 : Fin 2) * 1024 + 1 * a.val = b.val; omega

theorem wublk_apply (V : (c : Dev nD) → (b : Ref sig .tc) → Buf (Elt Ideal) ((c : Thread nD τ).loc b)) (c : Dev nD)
    (t : Fin cfg0.N) (q : Fin 512) (a : Fin 1024) (qq : Fin 11264) (b : Fin 4096)
    (hq : qq.val = t.val / 4 % 22 * 512 + q.val) (hb : b.val = t.val % 4 * 1024 + a.val) :
    (iblk (F := Ideal) V c 2 t : Vec Ideal S512x1024 .f32) (ix2 q a) = (V c main_v4 : FVec Ideal Cert.Spec.SWP .f32) (ix2 qq b) := by
  obtain ⟨-, -, -, -, e0, e1, -, -⟩ := idx_facts t
  unfold iblk
  rw [View.read_apply]
  show V c main_v4 _ = V c main_v4 _
  refine congrArg _ ?_
  funext d
  apply Fin.ext
  match d with
  | ⟨0, _⟩ => show win0_2.index t (0 : Fin 2) * 512 + 1 * q.val = qq.val; omega
  | ⟨1, _⟩ => show win0_2.index t (1 : Fin 2) * 1024 + 1 * a.val = b.val; omega

/-! ## Four partial sums over 1024 columns are the sum over 4096 -/

/-- Column a of column block k. -/
abbrev col (k : Fin 4) (a : Fin 1024) : Fin 4096 :=
  ⟨k.val * 1024 + a.val, by have hk : k.val < 4 := k.isLt; have ha : a.val < 1024 := a.isLt; omega⟩

/-- A sum over the 4096 columns is the sum over the four column blocks of the sums inside each. -/
theorem sum_blocks (f : Fin 4096 → EReal) : ∑ x : Fin 4096, f x = ∑ k : Fin 4, ∑ a : Fin 1024, f (col k a) := by
  have h := Equiv.sum_comp (finProdFinEquiv (m := 4) (n := 1024)) (f : Fin (4 * 1024) → EReal)
  refine h.symm.trans ?_
  rw [Fintype.sum_prod_type]
  refine Finset.sum_congr rfl fun k _ => Finset.sum_congr rfl fun a _ => congrArg f (Fin.ext ?_)
  show a.val + 1024 * k.val = k.val * 1024 + a.val
  omega

/-- The partial contraction over column block k of row p of X against row q of W. -/
def part (X : FVec Ideal Cert.Spec.SX2 .f32) (W : FVec Ideal Cert.Spec.SWP .f32) (p : Fin 4096) (q : Fin 11264) (k : Fin 4) : EReal :=
  ∑ a : Fin 1024, X (ix2 p (col k a)) * W (ix2 q (col k a))

/-- The full contraction of row p of X against row q of W. -/
def full (X : FVec Ideal Cert.Spec.SX2 .f32) (W : FVec Ideal Cert.Spec.SWP .f32) (p : Fin 4096) (q : Fin 11264) : EReal :=
  ∑ a : Fin 4096, X (ix2 p a) * W (ix2 q a)

/-- The full contraction is the four partial ones, added in the order the grid runs through them. -/
theorem sum_parts (X : FVec Ideal Cert.Spec.SX2 .f32) (W : FVec Ideal Cert.Spec.SWP .f32) (p : Fin 4096) (q : Fin 11264) :
    full X W p q = part X W p q 0 + part X W p q 1 + part X W p q 2 + part X W p q 3 := by
  unfold full
  rw [sum_blocks (fun a => X (ix2 p a) * W (ix2 q a)), Fin.sum_univ_four]
  rfl

/-! ## The accumulators along a run of four points

Entry (r, q) of the accumulators after point t, for the array row p and weight row qq the entry stands for
(p = (t / 88)·512 + r, qq = ((t / 4) mod 22)·512 + q): at k = 0 the first partial contraction added to zero, afterwards
the contraction over column block k = t mod 4 added to what the point before left. -/

theorem accG_first (V : (c : Dev nD) → (b : Ref sig .tc) → Buf (Elt Ideal) ((c : Thread nD τ).loc b)) (c : Dev nD) (t : Fin cfg0.N) (h : t.val % 4 = 0)
    (r q : Fin 512) (p : Fin 4096) (qq : Fin 11264)
    (hp : p.val = t.val / 88 * 512 + r.val) (hq : qq.val = t.val / 4 % 22 * 512 + q.val) :
    (acc (F := Ideal) V c t.val t.isLt).1 (ix2 r q) = 0 + part (V c main_v0) (V c main_v3) p qq 0 := by
  rw [acc_first V c t h]
  dsimp only
  refine (stepG_apply (iblk V c 0 t) (iblk V c 1 t) zeroG r q).trans ?_
  refine congrArg₂ (· + ·) (zeroG_apply r q) ?_
  unfold part
  refine Finset.sum_congr rfl fun a _ => ?_
  have ha : a.val < 1024 := a.isLt
  exact congrArg₂ (· * ·)
    (xblk_apply V c t r a p (col 0 a) hp (by show 0 * 1024 + a.val = t.val % 4 * 1024 + a.val; omega))
    (wgblk_apply V c t q a qq (col 0 a) hq (by show 0 * 1024 + a.val = t.val % 4 * 1024 + a.val; omega))

theorem accG_next (V : (c : Dev nD) → (b : Ref sig .tc) → Buf (Elt Ideal) ((c : Thread nD τ).loc b)) (c : Dev nD) (t : Fin cfg0.N) (h : ¬t.val % 4 = 0)
    (r q : Fin 512) (p : Fin 4096) (qq : Fin 11264) (k : Fin 4)
    (hp : p.val = t.val / 88 * 512 + r.val) (hq : qq.val = t.val / 4 % 22 * 512 + q.val) (hk : k.val = t.val % 4) :
    (acc (F := Ideal) V c t.val t.isLt).1 (ix2 r q)
      = (acc (F := Ideal) V c (t.val - 1) (Nat.lt_of_le_of_lt (Nat.sub_le _ _) t.isLt)).1 (ix2 r q) + part (V c main_v0) (V c main_v3) p qq k := by
  rw [acc_next V c t h]
  dsimp only
  refine (stepG_apply (iblk V c 0 t) (iblk V c 1 t) (acc (F := Ideal) V c (t.val - 1) (Nat.lt_of_le_of_lt (Nat.sub_le _ _) t.isLt)).1 r q).trans ?_
  refine congrArg (_ + ·) ?_
  unfold part
  refine Finset.sum_congr rfl fun a _ => ?_
  have ha : a.val < 1024 := a.isLt
  exact congrArg₂ (· * ·)
    (xblk_apply V c t r a p (col k a) hp (by show k.val * 1024 + a.val = t.val % 4 * 1024 + a.val; omega))
    (wgblk_apply V c t q a qq (col k a) hq (by show k.val * 1024 + a.val = t.val % 4 * 1024 + a.val; omega))

theorem accU_first (V : (c : Dev nD) → (b : Ref sig .tc) → Buf (Elt Ideal) ((c : Thread nD τ).loc b)) (c : Dev nD) (t : Fin cfg0.N) (h : t.val % 4 = 0)
    (r q : Fin 512) (p : Fin 4096) (qq : Fin 11264)
    (hp : p.val = t.val / 88 * 512 + r.val) (hq : qq.val = t.val / 4 % 22 * 512 + q.val) :
    (acc (F := Ideal) V c t.val t.isLt).2 (ix2 r q) = 0 + part (V c main_v0) (V c main_v4) p qq 0 := by
  rw [acc_first V c t h]
  dsimp only
  refine (stepU_apply (iblk V c 0 t) (iblk V c 2 t) zeroU r q).trans ?_
  refine congrArg₂ (· + ·) (zeroU_apply r q) ?_
  unfold part
  refine Finset.sum_congr rfl fun a _ => ?_
  have ha : a.val < 1024 := a.isLt
  exact congrArg₂ (· * ·)
    (xblk_apply V c t r a p (col 0 a) hp (by show 0 * 1024 + a.val = t.val % 4 * 1024 + a.val; omega))
    (wublk_apply V c t q a qq (col 0 a) hq (by show 0 * 1024 + a.val = t.val % 4 * 1024 + a.val; omega))

theorem accU_next (V : (c : Dev nD) → (b : Ref sig .tc) → Buf (Elt Ideal) ((c : Thread nD τ).loc b)) (c : Dev nD) (t : Fin cfg0.N) (h : ¬t.val % 4 = 0)
    (r q : Fin 512) (p : Fin 4096) (qq : Fin 11264) (k : Fin 4)
    (hp : p.val = t.val / 88 * 512 + r.val) (hq : qq.val = t.val / 4 % 22 * 512 + q.val) (hk : k.val = t.val % 4) :
    (acc (F := Ideal) V c t.val t.isLt).2 (ix2 r q)
      = (acc (F := Ideal) V c (t.val - 1) (Nat.lt_of_le_of_lt (Nat.sub_le _ _) t.isLt)).2 (ix2 r q) + part (V c main_v0) (V c main_v4) p qq k := by
  rw [acc_next V c t h]
  dsimp only
  refine (stepU_apply (iblk V c 0 t) (iblk V c 2 t) (acc (F := Ideal) V c (t.val - 1) (Nat.lt_of_le_of_lt (Nat.sub_le _ _) t.isLt)).2 r q).trans ?_
  refine congrArg (_ + ·) ?_
  unfold part
  refine Finset.sum_congr rfl fun a _ => ?_
  have ha : a.val < 1024 := a.isLt
  exact congrArg₂ (· * ·)
    (xblk_apply V c t r a p (col k a) hp (by show k.val * 1024 + a.val = t.val % 4 * 1024 + a.val; omega))
    (wublk_apply V c t q a qq (col k a) hq (by show k.val * 1024 + a.val = t.val % 4 * 1024 + a.val; omega))

/-! ## The accumulators at the last contraction step hold the full contractions -/

theorem accG_last (V : (c : Dev nD) → (b : Ref sig .tc) → Buf (Elt Ideal) ((c : Thread nD τ).loc b)) (c : Dev nD) (t : Fin cfg0.N) (h3 : t.val % 4 = 3)
    (r q : Fin 512) (p : Fin 4096) (qq : Fin 11264)
    (hp : p.val = t.val / 88 * 512 + r.val) (hq : qq.val = t.val / 4 % 22 * 512 + q.val) :
    (acc (F := Ideal) V c t.val t.isLt).1 (ix2 r q) = full (V c main_v0) (V c main_v3) p qq := by
  have l2 : t.val - 1 < cfg0.N := Nat.lt_of_le_of_lt (Nat.sub_le _ _) t.isLt
  have l1 : t.val - 1 - 1 < cfg0.N := Nat.lt_of_le_of_lt (Nat.sub_le _ _) l2
  have l0 : t.val - 1 - 1 - 1 < cfg0.N := Nat.lt_of_le_of_lt (Nat.sub_le _ _) l1
  have s3 := accG_next V c t (by omega) r q p qq 3 hp hq (by show 3 = t.val % 4; omega)
  have s2 := accG_next V c ⟨t.val - 1, l2⟩ (by show ¬(t.val - 1) % 4 = 0; omega) r q p qq 2
    (by show p.val = (t.val - 1) / 88 * 512 + r.val; omega) (by show qq.val = (t.val - 1) / 4 % 22 * 512 + q.val; omega)
    (by show 2 = (t.val - 1) % 4; omega)
  have s1 := accG_next V c ⟨t.val - 1 - 1, l1⟩ (by show ¬(t.val - 1 - 1) % 4 = 0; omega) r q p qq 1
    (by show p.val = (t.val - 1 - 1) / 88 * 512 + r.val; omega) (by show qq.val = (t.val - 1 - 1) / 4 % 22 * 512 + q.val; omega)
    (by show 1 = (t.val - 1 - 1) % 4; omega)
  have s0 := accG_first V c ⟨t.val - 1 - 1 - 1, l0⟩ (by show (t.val - 1 - 1 - 1) % 4 = 0; omega) r q p qq
    (by show p.val = (t.val - 1 - 1 - 1) / 88 * 512 + r.val; omega) (by show qq.val = (t.val - 1 - 1 - 1) / 4 % 22 * 512 + q.val; omega)
  rw [sum_parts]
  refine s3.trans (congrArg (· + part (V c main_v0) (V c main_v3) p qq 3) ?_)
  refine s2.trans (congrArg (· + part (V c main_v0) (V c main_v3) p qq 2) ?_)
  refine s1.trans (congrArg (· + part (V c main_v0) (V c main_v3) p qq 1) ?_)
  exact s0.trans (zero_add _)

theorem accU_last (V : (c : Dev nD) → (b : Ref sig .tc) → Buf (Elt Ideal) ((c : Thread nD τ).loc b)) (c : Dev nD) (t : Fin cfg0.N) (h3 : t.val % 4 = 3)
    (r q : Fin 512) (p : Fin 4096) (qq : Fin 11264)
    (hp : p.val = t.val / 88 * 512 + r.val) (hq : qq.val = t.val / 4 % 22 * 512 + q.val) :
    (acc (F := Ideal) V c t.val t.isLt).2 (ix2 r q) = full (V c main_v0) (V c main_v4) p qq := by
  have l2 : t.val - 1 < cfg0.N := Nat.lt_of_le_of_lt (Nat.sub_le _ _) t.isLt
  have l1 : t.val - 1 - 1 < cfg0.N := Nat.lt_of_le_of_lt (Nat.sub_le _ _) l2
  have l0 : t.val - 1 - 1 - 1 < cfg0.N := Nat.lt_of_le_of_lt (Nat.sub_le _ _) l1
  have s3 := accU_next V c t (by omega) r q p qq 3 hp hq (by show 3 = t.val % 4; omega)
  have s2 := accU_next V c ⟨t.val - 1, l2⟩ (by show ¬(t.val - 1) % 4 = 0; omega) r q p qq 2
    (by show p.val = (t.val - 1) / 88 * 512 + r.val; omega) (by show qq.val = (t.val - 1) / 4 % 22 * 512 + q.val; omega)
    (by show 2 = (t.val - 1) % 4; omega)
  have s1 := accU_next V c ⟨t.val - 1 - 1, l1⟩ (by show ¬(t.val - 1 - 1) % 4 = 0; omega) r q p qq 1
    (by show p.val = (t.val - 1 - 1) / 88 * 512 + r.val; omega) (by show qq.val = (t.val - 1 - 1) / 4 % 22 * 512 + q.val; omega)
    (by show 1 = (t.val - 1 - 1) % 4; omega)
  have s0 := accU_first V c ⟨t.val - 1 - 1 - 1, l0⟩ (by show (t.val - 1 - 1 - 1) % 4 = 0; omega) r q p qq
    (by show p.val = (t.val - 1 - 1 - 1) / 88 * 512 + r.val; omega) (by show qq.val = (t.val - 1 - 1 - 1) / 4 % 22 * 512 + q.val; omega)
  rw [sum_parts]
  refine s3.trans (congrArg (· + part (V c main_v0) (V c main_v4) p qq 3) ?_)
  refine s2.trans (congrArg (· + part (V c main_v0) (V c main_v4) p qq 2) ?_)
  refine s1.trans (congrArg (· + part (V c main_v0) (V c main_v4) p qq 1) ?_)
  exact s0.trans (zero_add _)

/-! ## The block written back at a point with k = 3 is the specification's block there -/

theorem flushed_eq (V : (c : Dev nD) → (b : Ref sig .tc) → Buf (Elt Ideal) ((c : Thread nD τ).loc b)) (c : Dev nD) (t : Fin cfg0.N) (hf : (cfg0.win 3).flush t = true) :
    (dat (F := Ideal) V c).flushed 3 t
      = ((cfg0.win 3).blk t).view.read (Elt Ideal) (Cert.Spec.hpad (V c main_v0) (V c main_v3) (V c main_v4)) := by
  have h3 : t.val % 4 = 3 := (flush0_3 t).mp hf
  have hN : t.val < 704 := lt_of_lt_of_eq t.isLt N_eq
  obtain ⟨-, -, -, -, -, -, e0, e1⟩ := idx_facts t
  show (cfg0.win 3).cut (grid0.coords t) ((dat (F := Ideal) V c).after 3 t) = _
  rw [after_3 V c t]
  funext j
  rw [View.read_apply]
  have hr : (j 0).val < 512 := (j 0).isLt
  have hq : (j 1).val < 512 := (j 1).isLt
  have ej : (cfg0.win 3).xinj (grid0.coords t) j = (ix2 (⟨(j 0).val, hr⟩ : Fin 512) (⟨(j 1).val, hq⟩ : Fin 512) : S512x512.Idx) :=
    funext fun a => Fin.ext (by match a with | ⟨0, _⟩ => rfl | ⟨1, _⟩ => rfl)
  have ei : ((cfg0.win 3).blk t).view.emb j
      = (ix2 (⟨t.val / 88 * 512 + (j 0).val, by omega⟩ : Fin 4096) (⟨t.val / 4 % 22 * 512 + (j 1).val, by omega⟩ : Fin 11264) : Cert.Spec.SWD.Idx) :=
    funext fun a => Fin.ext (by
      match a with
      | ⟨0, _⟩ => show win0_3.index t (0 : Fin 2) * 512 + 1 * (j 0).val = t.val / 88 * 512 + (j 0).val; omega
      | ⟨1, _⟩ => show win0_3.index t (1 : Fin 2) * 512 + 1 * (j 1).val = t.val / 4 % 22 * 512 + (j 1).val; omega)
  show outBlk (acc (F := Ideal) V c t.val t.isLt).1 (acc (F := Ideal) V c t.val t.isLt).2 ((cfg0.win 3).xinj (grid0.coords t) j)
    = Cert.Spec.hpad (V c main_v0) (V c main_v3) (V c main_v4) (((cfg0.win 3).blk t).view.emb j)
  rw [ej, ei]
  refine (outBlk_apply (acc (F := Ideal) V c t.val t.isLt).1 (acc (F := Ideal) V c t.val t.isLt).2 ⟨(j 0).val, hr⟩ ⟨(j 1).val, hq⟩).trans ?_
  show Cert.Spec.gated _ _ = Cert.Spec.hpadAt (V c main_v0) (V c main_v3) (V c main_v4) ⟨t.val / 88 * 512 + (j 0).val, _⟩ ⟨t.val / 4 % 22 * 512 + (j 1).val, _⟩
  show Cert.Spec.gated _ _ = Cert.Spec.gated
    (full (V c main_v0) (V c main_v3) ⟨t.val / 88 * 512 + (j 0).val, _⟩ ⟨t.val / 4 % 22 * 512 + (j 1).val, _⟩)
    (full (V c main_v0) (V c main_v4) ⟨t.val / 88 * 512 + (j 0).val, _⟩ ⟨t.val / 4 % 22 * 512 + (j 1).val, _⟩)
  exact congrArg₂ Cert.Spec.gated
    (accG_last V c t h3 ⟨(j 0).val, hr⟩ ⟨(j 1).val, hq⟩ ⟨t.val / 88 * 512 + (j 0).val, by omega⟩ ⟨t.val / 4 % 22 * 512 + (j 1).val, by omega⟩ rfl rfl)
    (accU_last V c t h3 ⟨(j 0).val, hr⟩ ⟨(j 1).val, hq⟩ ⟨t.val / 88 * 512 + (j 0).val, by omega⟩ ⟨t.val / 4 % 22 * 512 + (j 1).val, by omega⟩ rfl rfl)

/-! ## The written-back blocks tile the array -/

/-- An index of the array is in point t's block iff each coordinate is in the block's range on its axis. -/
theorem mem_blk (t : Fin cfg0.N) (i : S4096x11264.Idx) :
    i ∈ ((cfg0.win 3).blk t).view.set
      ↔ ∀ a : Fin 2, win0_3.index t a * S512x512.size a ≤ (i a).val ∧ (i a).val < win0_3.index t a * S512x512.size a + S512x512.size a := by
  show i ∈ ((View.whole main_v6).slice (win0_3.rect t)).set ↔ _
  rw [View.set_slice_whole, Rect.mem_set_unit]
  exact Iff.rfl

/-- Entry (p, q) lies in the block written back at the last contraction step of output block (p / 512, q / 512). -/
theorem cover (i : S4096x11264.Idx) :
    ∃ t : Fin cfg0.N, (cfg0.win 3).flush t = true ∧ i ∈ ((cfg0.win 3).blk t).view.set := by
  have hi0 : (i 0).val < 4096 := (i 0).isLt
  have hi1 : (i 1).val < 11264 := (i 1).isLt
  obtain ⟨n, hn⟩ : ∃ n : ℕ, n = ((i 0).val / 512 * 22 + (i 1).val / 512) * 4 + 3 := ⟨_, rfl⟩
  have hlt : n < cfg0.N := by rw [N_eq]; omega
  obtain ⟨-, -, -, -, -, -, e0, e1⟩ := idx_facts ⟨n, hlt⟩
  have e0' : win0_3.index ⟨n, hlt⟩ (0 : Fin 2) = n / 88 := e0
  have e1' : win0_3.index ⟨n, hlt⟩ (1 : Fin 2) = n / 4 % 22 := e1
  refine ⟨⟨n, hlt⟩, (flush0_3 ⟨n, hlt⟩).mpr (by show n % 4 = 3; omega), ?_⟩
  rw [mem_blk]
  intro a
  match a with
  | ⟨0, _⟩ =>
    show win0_3.index ⟨n, hlt⟩ (0 : Fin 2) * 512 ≤ (i 0).val ∧ (i 0).val < win0_3.index ⟨n, hlt⟩ (0 : Fin 2) * 512 + 512
    omega
  | ⟨1, _⟩ =>
    show win0_3.index ⟨n, hlt⟩ (1 : Fin 2) * 512 ≤ (i 1).val ∧ (i 1).val < win0_3.index ⟨n, hlt⟩ (1 : Fin 2) * 512 + 512
    omega

/-- The hidden array after the region is the specification's hidden layer of the three arrays the region read. -/
theorem final (V : (c : Dev nD) → (b : Ref sig .tc) → Buf (Elt Ideal) ((c : Thread nD τ).loc b)) (c : Dev nD) :
    (dat (F := Ideal) V c).arrAt 3 cfg0.N = Cert.Spec.hpad (V c main_v0) (V c main_v3) (V c main_v4) :=
  (dat (F := Ideal) V c).arrAt_eq_of_cover 3 (Cert.Spec.hpad (V c main_v0) (V c main_v3) (V c main_v4))
    (fun t hf => flushed_eq V c t hf) cover

end Cert.KernelIdeal.R0

end
-- ==== Proof.KI.R1Value.lean ====
/-
  What the down-projection region leaves in the projected array, at the ideal instance: entry (p, q) is the full
  contraction over the padded hidden axis of row p of the hidden array against row q of the padded down weights.
  The accumulator at the last contraction step of an output block holds the sum of the 22 partial products, which
  regroups to the full sum; the blocks written back at those points tile the array.

  The grid is 8 x 4 x 22 and point t = (mi·4 + nj)·22 + k, so mi = t / 88, nj = t / 22 mod 4, k = t mod 22. One step
  adds, at entry (r, q) of the 512 x 1024 accumulator, Σ_{i<512} h(r, i)·wd(q, i) of the point's two blocks, which are
  the arrays at rows mi·512 + r and nj·1024 + q and columns k·512 + i. Sums are written over initial segments of the
  naturals (the arrays extended by zero outside their extents), so that the 22 stretches of 512 join by the additivity
  of a sum over a range; over all 11264 positions the sum is the specification's entry.
-/
import proofs.«140974_j30425548325397_1_alg».proof.Proof.KI.R1Data
import proofs.«140974_j30425548325397_1_alg».proof.Proof.KI.Spec
import proofs.«140974_j30425548325397_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

/-! ## One step at an entry -/

/-- One accumulation step at an entry: what the accumulator held plus the contraction of the two blocks' rows. -/
theorem stepD_apply (x0 : Vec Ideal S512x512 .bf16) (x1 : Vec Ideal S1024x512 .f32) (s : Vec Ideal S512x1024 .f32)
    (r : Fin 512) (q : Fin 1024) :
    stepD x0 x1 s (ix2 r q) = s (ix2 r q) + ∑ i : Fin 512, x0 (ix2 r i) * x1 (ix2 q i) := by
  unfold stepD k1_pay2
  simp only [shapeCast_self]
  refine (addf_apply s _ (ix2 r q)).trans ?_
  refine congrArg (fun z => s (ix2 r q) + z) ?_
  refine (PlainDot.matmul_zero_apply 512 512 1024 x0
    (transpose S512x1024 [1, 0] (truncf (F := Ideal) FTy.bf16 x1 bitsLt_bf16_f32) transposes_S1024x512_p1_0_S512x1024) r q).trans ?_
  refine Finset.sum_congr rfl fun i _ => ?_
  refine congrArg (fun z => x0 (ix2 r i) * z) ?_
  exact transpose_apply [1, 0] (truncf (F := Ideal) FTy.bf16 x1 bitsLt_bf16_f32) transposes_S1024x512_p1_0_S512x1024 (ix2 i q) (ix2 q i)
    (fun b => by match b with | ⟨0, _⟩ => rfl | ⟨1, _⟩ => rfl)

/-- The block the accumulator is reset to is zero at every entry. -/
theorem zeroD_apply (r : Fin 512) (q : Fin 1024) : (zeroD : Vec Ideal S512x1024 .f32) (ix2 r q) = 0 := by
  unfold zeroD k1_pay1
  simp only [shapeCast_self]
  exact Ideal.ofBits_zero_f32

/-! ## The blocks read off their arrays -/

/-- The hidden array and the padded down weights as the region finds them, and a point's block of each. -/
abbrev harr (V : (c : Dev nD) → (b : Ref sig .tc) → Buf (Elt Ideal) ((c : Thread nD τ).loc b)) (c : Dev nD) :
    Vec Ideal S4096x11264 .bf16 := V c main_v6
abbrev warr (V : (c : Dev nD) → (b : Ref sig .tc) → Buf (Elt Ideal) ((c : Thread nD τ).loc b)) (c : Dev nD) :
    Vec Ideal S4096x11264 .f32 := V c main_v5
abbrev hblk (V : (c : Dev nD) → (b : Ref sig .tc) → Buf (Elt Ideal) ((c : Thread nD τ).loc b)) (c : Dev nD)
    (t : Fin cfg1.N) : Vec Ideal S512x512 .bf16 := iblk V c 0 t
abbrev wblk (V : (c : Dev nD) → (b : Ref sig .tc) → Buf (Elt Ideal) ((c : Thread nD τ).loc b)) (c : Dev nD)
    (t : Fin cfg1.N) : Vec Ideal S1024x512 .f32 := iblk V c 1 t

/-- The three index maps in closed form over the grid: point t = (mi·4 + nj)·22 + k. -/
theorem idx_facts : ∀ t : Fin cfg1.N,
    win1_0.index t (0 : Fin 2) = t.val / 88 ∧ win1_0.index t (1 : Fin 2) = t.val % 22
    ∧ win1_1.index t (0 : Fin 2) = t.val / 22 % 4 ∧ win1_1.index t (1 : Fin 2) = t.val % 22
    ∧ win1_2.index t (0 : Fin 2) = t.val / 88 ∧ win1_2.index t (1 : Fin 2) = t.val / 22 % 4 :=
  (by decide +kernel : ∀ t : Fin grid1.N,
    win1_0.index t (0 : Fin 2) = t.val / 88 ∧ win1_0.index t (1 : Fin 2) = t.val % 22
    ∧ win1_1.index t (0 : Fin 2) = t.val / 22 % 4 ∧ win1_1.index t (1 : Fin 2) = t.val % 22
    ∧ win1_2.index t (0 : Fin 2) = t.val / 88 ∧ win1_2.index t (1 : Fin 2) = t.val / 22 % 4)

/-- The hidden block at a point, at an entry: the hidden array at the block's offset plus the entry. -/
theorem hblk_apply (V : (c : Dev nD) → (b : Ref sig .tc) → Buf (Elt Ideal) ((c : Thread nD τ).loc b)) (c : Dev nD)
    (t : Fin cfg1.N) (r i : Fin 512) (hp : t.val / 88 * 512 + r.val < 4096) (hi : t.val % 22 * 512 + i.val < 11264) :
    hblk V c t (ix2 r i) = harr V c (ix2 ⟨t.val / 88 * 512 + r.val, hp⟩ ⟨t.val % 22 * 512 + i.val, hi⟩) := by
  obtain ⟨e0, e1, -, -, -, -⟩ := idx_facts t
  unfold hblk iblk
  rw [View.read_apply]
  show harr V c (((cfg1.win 0).blk t).view.emb (ix2 r i)) = _
  refine congrArg (harr V c) ?_
  funext a
  apply Fin.ext
  match a with
  | ⟨0, _⟩ => show win1_0.index t (0 : Fin 2) * 512 + 1 * r.val = t.val / 88 * 512 + r.val; rw [e0]; omega
  | ⟨1, _⟩ => show win1_0.index t (1 : Fin 2) * 512 + 1 * i.val = t.val % 22 * 512 + i.val; rw [e1]; omega

/-- The down-weight block at a point, at an entry. -/
theorem wblk_apply (V : (c : Dev nD) → (b : Ref sig .tc) → Buf (Elt Ideal) ((c : Thread nD τ).loc b)) (c : Dev nD)
    (t : Fin cfg1.N) (q : Fin 1024) (i : Fin 512) (hq : t.val / 22 % 4 * 1024 + q.val < 4096) (hi : t.val % 22 * 512 + i.val < 11264) :
    wblk V c t (ix2 q i) = warr V c (ix2 ⟨t.val / 22 % 4 * 1024 + q.val, hq⟩ ⟨t.val % 22 * 512 + i.val, hi⟩) := by
  obtain ⟨-, -, e0, e1, -, -⟩ := idx_facts t
  unfold wblk iblk
  rw [View.read_apply]
  show warr V c (((cfg1.win 1).blk t).view.emb (ix2 q i)) = _
  refine congrArg (warr V c) ?_
  funext a
  apply Fin.ext
  match a with
  | ⟨0, _⟩ => show win1_1.index t (0 : Fin 2) * 1024 + 1 * q.val = t.val / 22 % 4 * 1024 + q.val; rw [e0]; omega
  | ⟨1, _⟩ => show win1_1.index t (1 : Fin 2) * 512 + 1 * i.val = t.val % 22 * 512 + i.val; rw [e1]; omega

/-! ## Partial sums along the contraction axis -/

/-- The hidden array at natural coordinates, zero outside the array. -/
def Hn (H : Vec Ideal S4096x11264 .bf16) (p i : Nat) : EReal :=
  if h : p < 4096 ∧ i < 11264 then H (ix2 ⟨p, h.1⟩ ⟨i, h.2⟩) else 0
/-- The padded down weights at natural coordinates, zero outside the array. -/
def Wn (W : Vec Ideal S4096x11264 .f32) (q i : Nat) : EReal :=
  if h : q < 4096 ∧ i < 11264 then W (ix2 ⟨q, h.1⟩ ⟨i, h.2⟩) else 0

/-- The contraction of row p of the hidden array against row q of the down weights over the first n positions. -/
def psum (H : Vec Ideal S4096x11264 .bf16) (W : Vec Ideal S4096x11264 .f32) (p q n : Nat) : EReal :=
  ∑ j ∈ Finset.range n, Hn H p j * Wn W q j

theorem psum_zero (H : Vec Ideal S4096x11264 .bf16) (W : Vec Ideal S4096x11264 .f32) (p q : Nat) : psum H W p q 0 = 0 :=
  Finset.sum_range_zero _

/-- A partial sum extended by b positions. -/
theorem psum_add (H : Vec Ideal S4096x11264 .bf16) (W : Vec Ideal S4096x11264 .f32) (p q a b : Nat) :
    psum H W p q (a + b) = psum H W p q a + ∑ j ∈ Finset.range b, Hn H p (a + j) * Wn W q (a + j) :=
  Finset.sum_range_add _ _ _

/-- Over the whole padded axis the partial sum is the specification's entry. -/
theorem psum_full (H : Vec Ideal S4096x11264 .bf16) (W : Vec Ideal S4096x11264 .f32) (p q : Fin 4096) :
    psum H W p.val q.val 11264 = Cert.Spec.out2At H W p q := by
  unfold psum Cert.Spec.out2At
  rw [← Fin.sum_univ_eq_sum_range (fun j => Hn H p.val j * Wn W q.val j) 11264]
  refine Finset.sum_congr rfl fun i _ => ?_
  unfold Hn Wn
  rw [dif_pos ⟨p.isLt, i.isLt⟩, dif_pos ⟨q.isLt, i.isLt⟩]

/-- The partial product of a point's two blocks, at an entry, is the stretch of the contraction the point's
    contraction block covers. -/
theorem step_sum (V : (c : Dev nD) → (b : Ref sig .tc) → Buf (Elt Ideal) ((c : Thread nD τ).loc b)) (c : Dev nD)
    (t : Fin cfg1.N) (r : Fin 512) (q : Fin 1024) :
    ∑ i : Fin 512, hblk V c t (ix2 r i) * wblk V c t (ix2 q i)
      = ∑ j ∈ Finset.range 512, Hn (harr V c) (t.val / 88 * 512 + r.val) (t.val % 22 * 512 + j)
          * Wn (warr V c) (t.val / 22 % 4 * 1024 + q.val) (t.val % 22 * 512 + j) := by
  have ht : t.val < 704 := t.isLt
  have hr : r.val < 512 := r.isLt
  have hq : q.val < 1024 := q.isLt
  rw [← Fin.sum_univ_eq_sum_range (fun j => Hn (harr V c) (t.val / 88 * 512 + r.val) (t.val % 22 * 512 + j)
          * Wn (warr V c) (t.val / 22 % 4 * 1024 + q.val) (t.val % 22 * 512 + j)) 512]
  refine Finset.sum_congr rfl fun i _ => ?_
  have hi : i.val < 512 := i.isLt
  have hp' : t.val / 88 * 512 + r.val < 4096 := by omega
  have hq' : t.val / 22 % 4 * 1024 + q.val < 4096 := by omega
  have hi' : t.val % 22 * 512 + i.val < 11264 := by omega
  refine (congrArg₂ (fun a b : EReal => a * b) (hblk_apply V c t r i hp' hi') (wblk_apply V c t q i hq' hi')).trans ?_
  unfold Hn Wn
  rw [dif_pos ⟨hp', hi'⟩, dif_pos ⟨hq', hi'⟩]

/-! ## The accumulator after every point -/

/-- One step from an accumulator that holds the partial sum up to the point's contraction block holds the partial
    sum through it. -/
theorem step_apply (V : (c : Dev nD) → (b : Ref sig .tc) → Buf (Elt Ideal) ((c : Thread nD τ).loc b)) (c : Dev nD)
    (t : Fin cfg1.N) (s : Vec Ideal S512x1024 .f32) (r : Fin 512) (q : Fin 1024)
    (hs : s (ix2 r q) = psum (harr V c) (warr V c) (t.val / 88 * 512 + r.val) (t.val / 22 % 4 * 1024 + q.val) (t.val % 22 * 512)) :
    stepD (hblk V c t) (wblk V c t) s (ix2 r q)
      = psum (harr V c) (warr V c) (t.val / 88 * 512 + r.val) (t.val / 22 % 4 * 1024 + q.val) ((t.val % 22 + 1) * 512) := by
  refine (stepD_apply (hblk V c t) (wblk V c t) s r q).trans ?_
  rw [hs, step_sum V c t r q, show (t.val % 22 + 1) * 512 = t.val % 22 * 512 + 512 from by omega, psum_add]

/-- After the point at position n the accumulator holds, at entry (r, q), the contraction of the hidden array's row
    against the down weights' row over the contraction blocks 0..k of the point, k = n mod 22. -/
theorem acc_apply (V : (c : Dev nD) → (b : Ref sig .tc) → Buf (Elt Ideal) ((c : Thread nD τ).loc b)) (c : Dev nD) :
    ∀ (n : ℕ) (hn : n < cfg1.N) (r : Fin 512) (q : Fin 1024),
      acc V c n hn (ix2 r q)
        = psum (harr V c) (warr V c) (n / 88 * 512 + r.val) (n / 22 % 4 * 1024 + q.val) ((n % 22 + 1) * 512)
  | 0, hn, r, q => by
    have hacc : acc V c 0 hn = stepD (hblk V c ⟨0, hn⟩) (wblk V c ⟨0, hn⟩) zeroD := by rw [acc]
    refine (congrFun hacc (ix2 r q)).trans ?_
    exact step_apply V c ⟨0, hn⟩ zeroD r q ((zeroD_apply r q).trans (psum_zero _ _ _ _).symm)
  | n + 1, hn, r, q => by
    by_cases h : (n + 1) % 22 = 0
    · have hacc : acc V c (n + 1) hn = stepD (hblk V c ⟨n + 1, hn⟩) (wblk V c ⟨n + 1, hn⟩) zeroD := by
        rw [acc]; exact if_pos h
      refine (congrFun hacc (ix2 r q)).trans ?_
      refine step_apply V c ⟨n + 1, hn⟩ zeroD r q ((zeroD_apply r q).trans ?_)
      show 0 = psum (harr V c) (warr V c) ((n + 1) / 88 * 512 + r.val) ((n + 1) / 22 % 4 * 1024 + q.val) ((n + 1) % 22 * 512)
      rw [h, Nat.zero_mul, psum_zero]
    · have hacc : acc V c (n + 1) hn
          = stepD (hblk V c ⟨n + 1, hn⟩) (wblk V c ⟨n + 1, hn⟩) (acc V c n (Nat.lt_of_succ_lt hn)) := by
        rw [acc]; exact if_neg h
      refine (congrFun hacc (ix2 r q)).trans ?_
      refine step_apply V c ⟨n + 1, hn⟩ (acc V c n (Nat.lt_of_succ_lt hn)) r q ?_
      have e1 : (n + 1) / 88 = n / 88 := by omega
      have e2 : (n + 1) / 22 = n / 22 := by omega
      have e3 : (n + 1) % 22 = n % 22 + 1 := by omega
      show acc V c n (Nat.lt_of_succ_lt hn) (ix2 r q)
        = psum (harr V c) (warr V c) ((n + 1) / 88 * 512 + r.val) ((n + 1) / 22 % 4 * 1024 + q.val) ((n + 1) % 22 * 512)
      rw [e1, e2, e3]
      exact acc_apply V c n (Nat.lt_of_succ_lt hn) r q

/-! ## From the blocks written back to the array -/

/-- At a point that closes a run of 22 the accumulator, at an entry, is the specification's entry at the array
    coordinates the entry has in the point's output block. -/
theorem acc_last (V : (c : Dev nD) → (b : Ref sig .tc) → Buf (Elt Ideal) ((c : Thread nD τ).loc b)) (c : Dev nD)
    (t : Fin cfg1.N) (hk : t.val % 22 = 21) (j : S512x1024.Idx) (i : S4096x4096.Idx)
    (h0 : (i 0).val = t.val / 88 * 512 + (j 0).val) (h1 : (i 1).val = t.val / 22 % 4 * 1024 + (j 1).val) :
    (acc V c t.val t.isLt : Vec Ideal S512x1024 .f32) j = Cert.Spec.out2 (harr V c) (warr V c) i := by
  refine (congrArg (acc V c t.val t.isLt : Vec Ideal S512x1024 .f32) (eq_ix2 j)).trans ?_
  refine (acc_apply V c t.val t.isLt (j 0) (j 1)).trans ?_
  rw [hk, ← h0, ← h1]
  exact psum_full (harr V c) (warr V c) (i 0) (i 1)

/-- What a point that writes back writes is its block of the specification's array. -/
theorem flushed_eq (V : (c : Dev nD) → (b : Ref sig .tc) → Buf (Elt Ideal) ((c : Thread nD τ).loc b)) (c : Dev nD)
    (t : Fin cfg1.N) (hf : (cfg1.win 2).flush t = true) :
    (dat V c).flushed 2 t
      = ((cfg1.win 2).blk t).view.read (Elt Ideal) (Cert.Spec.out2 (V c main_v6) (V c main_v5)) := by
  have hk : t.val % 22 = 21 := (flush1_2 t).mp hf
  obtain ⟨-, -, -, -, e0, e1⟩ := idx_facts t
  show (cfg1.win 2).cut (grid1.coords t) ((dat V c).after 2 t) = _
  rw [after_2]
  funext j
  show (acc V c t.val t.isLt : Vec Ideal S512x1024 .f32) j
    = Cert.Spec.out2 (harr V c) (warr V c) (((cfg1.win 2).blk t).view.emb j)
  refine acc_last V c t hk j (((cfg1.win 2).blk t).view.emb j) ?_ ?_
  · show win1_2.index t (0 : Fin 2) * 512 + 1 * (j 0).val = t.val / 88 * 512 + (j 0).val
    rw [e0]; omega
  · show win1_2.index t (1 : Fin 2) * 1024 + 1 * (j 1).val = t.val / 22 % 4 * 1024 + (j 1).val
    rw [e1]; omega

/-- The output blocks written back tile the projected array: entry (p, q) lies in the block of the point that
    closes the run of output block (p / 512, q / 1024). -/
theorem cover (i : S4096x4096.Idx) :
    ∃ t : Fin cfg1.N, (cfg1.win 2).flush t = true ∧ i ∈ ((cfg1.win 2).blk t).view.set := by
  have h0 : (i 0).val < 4096 := (i 0).isLt
  have h1 : (i 1).val < 4096 := (i 1).isLt
  obtain ⟨tv, htv⟩ : ∃ tv : ℕ, tv = ((i 0).val / 512 * 4 + (i 1).val / 1024) * 22 + 21 := ⟨_, rfl⟩
  have ht : tv < cfg1.N := by show tv < 704; omega
  obtain ⟨-, -, -, -, e0, e1⟩ := idx_facts ⟨tv, ht⟩
  refine ⟨⟨tv, ht⟩, (flush1_2 ⟨tv, ht⟩).mpr (by show tv % 22 = 21; omega), ?_⟩
  show i ∈ ((View.whole main_v7).slice (win1_2.rect ⟨tv, ht⟩)).set
  rw [View.set_slice_whole, Rect.mem_set_unit]
  intro a
  match a with
  | ⟨0, _⟩ =>
    show win1_2.index ⟨tv, ht⟩ (0 : Fin 2) * 512 ≤ (i 0).val ∧ (i 0).val < win1_2.index ⟨tv, ht⟩ (0 : Fin 2) * 512 + 512
    rw [e0]; show tv / 88 * 512 ≤ (i 0).val ∧ (i 0).val < tv / 88 * 512 + 512; omega
  | ⟨1, _⟩ =>
    show win1_2.index ⟨tv, ht⟩ (1 : Fin 2) * 1024 ≤ (i 1).val ∧ (i 1).val < win1_2.index ⟨tv, ht⟩ (1 : Fin 2) * 1024 + 1024
    rw [e1]; show tv / 22 % 4 * 1024 ≤ (i 1).val ∧ (i 1).val < tv / 22 % 4 * 1024 + 1024; omega

/-- The projected array after the region is the specification's contraction of the two arrays the region read. -/
theorem final (V : (c : Dev nD) → (b : Ref sig .tc) → Buf (Elt Ideal) ((c : Thread nD τ).loc b)) (c : Dev nD) :
    (dat (F := Ideal) V c).arrAt 2 cfg1.N = Cert.Spec.out2 (V c main_v6) (V c main_v5) :=
  (dat (F := Ideal) V c).arrAt_eq_of_cover 2 (Cert.Spec.out2 (V c main_v6) (V c main_v5))
    (fun t hf => flushed_eq V c t hf) cover

end Cert.KernelIdeal.R1

end
-- ==== Proof.KI.HostVal.lean ====
/-
  The host operations around the two calls, at the ideal instance, as the specification's layout functions: the
  merge of x's leading axes, the two halves of w1 each padded with zero rows, w2 padded with zero columns, and the
  split of the result's leading axis.
-/
import proofs.«140974_j30425548325397_1_alg».proof.Proof.Gen.KernelIdeal.Regions
import proofs.«140974_j30425548325397_1_alg».proof.Proof.KI.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.KernelVsHost

set_option maxRecDepth 16384

noncomputable section

namespace Cert.KernelIdeal.HostVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

/-! ## Each layout operation read at an index, over variables of the literal array types -/

/-- The merge of a [2, 2048, 4096] array's leading axes read at (r, a): the entry (r / 2048, r % 2048, a). -/
theorem merge_apply (x : FVec Ideal Cert.Spec.SX3 .f32) (h : Cert.Spec.SX3.ShapeCasts Cert.Spec.SX2) (j : Cert.Spec.SX2.Idx) :
    shapeCast Cert.Spec.SX2 x h j = Cert.Spec.x2 x j := by
  have h0 : (j 0).val < 4096 := (j 0).isLt
  have h1 : (j 1).val < 4096 := (j 1).isLt
  unfold Cert.Spec.x2
  refine shapeCast_apply x h j _ ?_
  rw [Shape.rowMajor_val_three, Shape.rowMajor_val_two]
  show (((j 0).val / 2048) * 2048 + (j 0).val % 2048) * 4096 + (j 1).val = (j 0).val * 4096 + (j 1).val
  omega

/-- The integer scalar 0 converted to a float scalar holds 0. -/
theorem zeroScalar_apply (i : S_.Idx) : (sitofp .f32 (constantI S_ 32 0#32) : FVec Ideal S_ .f32) i = 0 := by
  show ((((0#32 : BitVec 32).toInt : ℤ) : ℝ) : EReal) = 0
  simp

/-- Rows off .. off + 11007 of w1, then 256 rows of a scalar that holds 0: the padded weights of the specification. -/
theorem sliceRowsPad_eq (w1 : FVec Ideal Cert.Spec.SW1 .f32) (off : Nat) (hoff : off + 11008 ≤ 22016)
    (hs : Cert.Spec.SW1.Slices ![off, 0] (⟨2, ![11008, 4096]⟩ : Shape))
    (hp : (⟨2, ![11008, 4096]⟩ : Shape).Pads (![0, 0] : Fin 2 → Nat) ![256, 0] ![0, 0] Cert.Spec.SWP)
    {u : Shape} (v : FVec Ideal u .f32) (hu : 0 < u.numel) (hv : v (Shape.Idx.first hu) = 0) :
    pad Cert.Spec.SWP ![0, 0] ![256, 0] ![0, 0] (extractStridedSlice (⟨2, ![11008, 4096]⟩ : Shape) ![off, 0] w1 hs) v hp hu
      = Cert.Spec.wpad w1 off hoff := by
  funext j
  have h0 : (j 0).val < 11264 := (j 0).isLt
  have h1 : (j 1).val < 4096 := (j 1).isLt
  unfold Cert.Spec.wpad
  by_cases h : (j 0).val < 11008
  · rw [dif_pos h]
    refine (pad_apply_of_inside _ _ _ _ v hp hu j (ix2 (⟨(j 0).val, h⟩ : Fin 11008) (j 1)) (fun a => match a with
      | ⟨0, _⟩ => by show (j 0).val = 0 + (j 0).val * (0 + 1); omega
      | ⟨1, _⟩ => by show (j 1).val = 0 + (j 1).val * (0 + 1); omega)).trans ?_
    exact extractStridedSlice_apply ![off, 0] w1 hs _ _ (fun a => match a with
      | ⟨0, _⟩ => by show off + (j 0).val = off + (j 0).val; rfl
      | ⟨1, _⟩ => by show (j 1).val = 0 + (j 1).val; omega)
  · rw [dif_neg h]
    refine (pad_apply_of_not_inside _ _ _ _ v hp hu j (0 : Fin 2) (fun hin => h ?_)).trans hv
    have h2 : ((j 0).val - 0) / (0 + 1) < 11008 := hin.2.2
    omega

/-- w2 followed by 256 columns of a scalar that holds 0: the padded down weights of the specification. -/
theorem padCols_eq (w2 : FVec Ideal Cert.Spec.SW2 .f32)
    (hp : Cert.Spec.SW2.Pads (![0, 0] : Fin 2 → Nat) ![0, 256] ![0, 0] Cert.Spec.SWD)
    {u : Shape} (v : FVec Ideal u .f32) (hu : 0 < u.numel) (hv : v (Shape.Idx.first hu) = 0) :
    pad Cert.Spec.SWD ![0, 0] ![0, 256] ![0, 0] w2 v hp hu = Cert.Spec.wdpad w2 := by
  funext j
  have h0 : (j 0).val < 4096 := (j 0).isLt
  have h1 : (j 1).val < 11264 := (j 1).isLt
  unfold Cert.Spec.wdpad
  by_cases h : (j 1).val < 11008
  · rw [dif_pos h]
    exact pad_apply_of_inside _ _ _ w2 v hp hu j (ix2 (j 0) (⟨(j 1).val, h⟩ : Fin 11008)) (fun a => match a with
      | ⟨0, _⟩ => by show (j 0).val = 0 + (j 0).val * (0 + 1); omega
      | ⟨1, _⟩ => by show (j 1).val = 0 + (j 1).val * (0 + 1); omega)
  · rw [dif_neg h]
    refine (pad_apply_of_not_inside _ _ _ w2 v hp hu j (1 : Fin 2) (fun hin => h ?_)).trans hv
    have h2 : ((j 1).val - 0) / (0 + 1) < 11008 := hin.2.2
    omega

/-- The split of a [4096, 4096] array's leading axis read at (b, s, a): the entry (b · 2048 + s, a). -/
theorem split_apply (y : FVec Ideal Cert.Spec.SX2 .f32) (h : Cert.Spec.SX2.ShapeCasts Cert.Spec.SX3) (j : Cert.Spec.SX3.Idx) :
    shapeCast Cert.Spec.SX3 y h j = Cert.Spec.y3 y j := by
  have h0 : (j 0).val < 2 := (j 0).isLt
  have h1 : (j 1).val < 2048 := (j 1).isLt
  have h2 : (j 2).val < 4096 := (j 2).isLt
  unfold Cert.Spec.y3
  refine shapeCast_apply y h j _ ?_
  rw [Shape.rowMajor_val_three, Shape.rowMajor_val_two]
  show ((j 0).val * 2048 + (j 1).val) * 4096 + (j 2).val = ((j 0).val * 2048 + (j 1).val) * 4096 + (j 2).val
  rfl

/-! ## The buffers the host stretches leave: each carried down to the stretch that writes it, then read off it -/

theorem V6_v0 (m : (ℓ : Loc nD τ sig) → Buf (Elt Ideal) ℓ) (c : Dev nD) :
    (V6 (F := Ideal) m c main_v0 : Buf (Elt Ideal) ((c : Thread nD τ).loc main_v0)) = Cert.Spec.x2 (m ((c : Thread nD τ).loc main_arg0)) := by
  refine (V6_of m c main_v0 (by decide)).trans ?_
  refine (V5_of m c main_v0 (by decide)).trans ?_
  refine (V4_of m c main_v0 (by decide)).trans ?_
  refine (V3_of m c main_v0 (by decide)).trans ?_
  refine (V2_of m c main_v0 (by decide)).trans ?_
  show StableHlo.after hostOps0 (V0 m c) (Proc.devRef .tc main_v0) = _
  after_results
  funext j
  exact merge_apply (m ((c : Thread nD τ).loc main_arg0)) shapeCasts_S2x2048x4096_S4096x4096 j
theorem V6_v3 (m : (ℓ : Loc nD τ sig) → Buf (Elt Ideal) ℓ) (c : Dev nD) :
    (V6 (F := Ideal) m c main_v3 : Buf (Elt Ideal) ((c : Thread nD τ).loc main_v3)) = Cert.Spec.wpad (m ((c : Thread nD τ).loc main_arg1)) 0 (by norm_num) := by
  refine (V6_of m c main_v3 (by decide)).trans ?_
  refine (V5_of m c main_v3 (by decide)).trans ?_
  refine (V4_of m c main_v3 (by decide)).trans ?_
  refine (V3_of m c main_v3 (by decide)).trans ?_
  show StableHlo.after hostOps0_1 (V1 m c) (Proc.devRef .tc main_v3) = _
  after_results
  exact sliceRowsPad_eq (m ((c : Thread nD τ).loc main_arg1)) 0 (by norm_num) slices_S22016x4096_S11008x4096_0_0
    pads_S11008x4096_S11264x4096_02560_000 (sitofp .f32 (constantI S_ 32 0#32) : FVec Ideal S_ .f32) h_S_
    (zeroScalar_apply (Shape.Idx.first h_S_))
theorem V6_v4 (m : (ℓ : Loc nD τ sig) → Buf (Elt Ideal) ℓ) (c : Dev nD) :
    (V6 (F := Ideal) m c main_v4 : Buf (Elt Ideal) ((c : Thread nD τ).loc main_v4)) = Cert.Spec.wpad (m ((c : Thread nD τ).loc main_arg1)) 11008 (by norm_num) := by
  refine (V6_of m c main_v4 (by decide)).trans ?_
  refine (V5_of m c main_v4 (by decide)).trans ?_
  show StableHlo.after hostOps0_3 (V3 m c) (Proc.devRef .tc main_v4) = _
  after_results
  exact sliceRowsPad_eq (m ((c : Thread nD τ).loc main_arg1)) 11008 (by norm_num) slices_S22016x4096_S11008x4096_11008_0
    pads_S11008x4096_S11264x4096_02560_000 (sitofp .f32 (constantI S_ 32 0#32) : FVec Ideal S_ .f32) h_S_
    (zeroScalar_apply (Shape.Idx.first h_S_))
theorem V6_v5 (m : (ℓ : Loc nD τ sig) → Buf (Elt Ideal) ℓ) (c : Dev nD) :
    (V6 (F := Ideal) m c main_v5 : Buf (Elt Ideal) ((c : Thread nD τ).loc main_v5)) = Cert.Spec.wdpad (m ((c : Thread nD τ).loc main_arg2)) := by
  show StableHlo.after hostOps0_5 (V5 m c) (Proc.devRef .tc main_v5) = _
  after_results
  exact padCols_eq (m ((c : Thread nD τ).loc main_arg2)) pads_S4096x11008_S4096x11264_000_02560
    (sitofp .f32 (constantI S_ 32 0#32) : FVec Ideal S_ .f32) h_S_ (zeroScalar_apply (Shape.Idx.first h_S_))
theorem V9_v8 (m : (ℓ : Loc nD τ sig) → Buf (Elt Ideal) ℓ) (outs : Outs (F := Ideal)) (c : Dev nD) :
    (V9 (F := Ideal) m outs c main_v8 : Buf (Elt Ideal) ((c : Thread nD τ).loc main_v8)) = Cert.Spec.y3 (V8 (F := Ideal) m outs c main_v7) := by
  show StableHlo.after hostOps2 (V8 m outs c) (Proc.devRef .tc main_v8) = _
  after_results
  funext j
  exact split_apply (V8 (F := Ideal) m outs c main_v7) shapeCasts_S4096x4096_S2x2048x4096 j

end Cert.KernelIdeal.HostVal

end
-- ==== Proof.KI.Final.lean ====
/-
  The idealized kernel program's run with its result named: the result array is the split of the projected array,
  which region 1 leaves as the contraction of the hidden array (what region 0 leaves: the gated products of x's rows
  with the padded gate and up weights) against the padded down weights, each input of a region being what the host
  operations before it made of the three arguments.
-/
import proofs.«140974_j30425548325397_1_alg».proof.Proof.KI.Regs
import proofs.«140974_j30425548325397_1_alg».proof.Proof.KI.RunCond
import proofs.«140974_j30425548325397_1_alg».proof.Proof.KI.R0Value
import proofs.«140974_j30425548325397_1_alg».proof.Proof.KI.R1Value
import proofs.«140974_j30425548325397_1_alg».proof.Proof.KI.HostVal

set_option maxRecDepth 16384

noncomputable section

namespace Cert.KernelIdeal.Final

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.KernelIdeal.Regs

local notation "𝕄" => MT nD τ sig Unit (Elt Ideal) ℕ (UR sig nD τ) ℕ

variable (m : (ℓ : Loc nD τ sig) → Buf (Elt Ideal) ℓ)

/-- The projected array at the last boundary is what region 1 left. -/
theorem v7 (c : Dev nD) : (V8 (F := Ideal) m (outs m) c main_v7 : Buf (Elt Ideal) ((c : Thread nD τ).loc main_v7)) = arr7 m c := by
  rw [V8_eq]; exact Function.update_self ..
/-- Region 1 read the hidden array as region 0 left it, -/
theorem vin1_v6 (c : Dev nD) : Vin1 m c main_v6 = arr6 m c := Function.update_self ..
/-- and the padded down weights as the host left them. -/
theorem vin1_v5 (c : Dev nD) : Vin1 m c main_v5 = (V6 (F := Ideal) m c main_v5 : Buf (Elt Ideal) ((c : Thread nD τ).loc main_v5)) := by
  show W7 m c main_v5 = _
  rw [← V7_eq]; exact V7_of m (outs m) c main_v5 (by decide)

/-- The result array at the end is the kernel's value of the three arguments. -/
theorem result (c : Dev nD) :
    (V9 (F := Ideal) m (outs m) c main_v8 : Buf (Elt Ideal) ((c : Thread nD τ).loc main_v8))
      = Cert.Spec.kernelValue (m ((c : Thread nD τ).loc main_arg0)) (m ((c : Thread nD τ).loc main_arg1)) (m ((c : Thread nD τ).loc main_arg2)) := by
  rw [HostVal.V9_v8, v7]
  unfold arr7
  rw [R1.final (Vin1 m) c, vin1_v6, vin1_v5]
  unfold arr6
  rw [R0.final (Vin0 m) c]
  show Cert.Spec.y3 (Cert.Spec.out2 (Cert.Spec.hpad (V6 (F := Ideal) m c main_v0) (V6 (F := Ideal) m c main_v3) (V6 (F := Ideal) m c main_v4)) (V6 (F := Ideal) m c main_v5)) = _
  rw [HostVal.V6_v0, HostVal.V6_v3, HostVal.V6_v4, HostVal.V6_v5]
  rfl

/-- Every weakly fair execution of the idealized kernel program terminates with the result array at the kernel's
    value of the arguments and the arguments as launched. -/
theorem run (ρ : Dev nD → PrngReg) :
    θ_run defs (onTc (τ := τ) (main (F := Ideal))) ⟨m, fun _ => 0, ρ⟩ (fun r => ∀ c : Dev nD,
      r.2.mem ((c.tc : Thread nD τ).loc main_v8) = Cert.Spec.kernelValue (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨(h c (Proc.devRef .tc main_v8) (Finset.mem_filter.mpr ⟨StableHlo.devRef_mem_tcRefs main_v8, by decide⟩)).trans (result m c),
       (h c (Proc.devRef .tc main_arg0) (Finset.mem_filter.mpr ⟨StableHlo.devRef_mem_tcRefs main_arg0, by decide⟩)).trans (V9_main_arg0 m (outs m) c),
       (h c (Proc.devRef .tc main_arg1) (Finset.mem_filter.mpr ⟨StableHlo.devRef_mem_tcRefs main_arg1, by decide⟩)).trans (V9_main_arg1 m (outs m) c),
       (h c (Proc.devRef .tc main_arg2) (Finset.mem_filter.mpr ⟨StableHlo.devRef_mem_tcRefs main_arg2, by decide⟩)).trans (V9_main_arg2 m (outs m) c)⟩)
    (run_cond m (outs m) (EP := emb₁) (ι := ()) (𝒱₀ := Variants.none) (L := L) (lv := lv) (hL := fun _ _ => rfl) (ρ := ρ)
      (pdats := pdats m) (O₀ := 0) (G := fun _ => (BI.emp : sProp 𝕄)) (u₀ := u₀) (hu₀ := hu₀ (F := Ideal))
      (E := fun _ c => R (F := Ideal) c) (hE0 := hE0 (F := Ideal) ρ) (hE2 := hE2 (F := Ideal))
      (R0 := reg0 m) (hpre0 := fun _ => .rfl) (hpost0 := fun _ => .rfl)
      (R1 := reg1 m) (hpre1 := fun _ => .rfl) (hpost1 := fun _ => .rfl))

end Cert.KernelIdeal.Final

end
-- ==== Proof.KI.RefIsG.lean ====
/-
  The reference's run, read as the specification's function G of the three arguments: two contractions over one
  axis each, the gate and up halves cut out of the first product, silu spelt as g · (1 / (1 + e^(-g))).
-/
import proofs.«140974_j30425548325397_1_alg».proof.Defs
import proofs.«140974_j30425548325397_1_alg».proof.Proof.Gen.ReferenceIdeal.Run
import proofs.«140974_j30425548325397_1_alg».proof.Proof.Gen.ReferenceIdeal.Read
import proofs.«140974_j30425548325397_1_alg».proof.Proof.KI.Spec
import Idealize.ShloMosaic.Lib.IdealHost

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-- silu spelt as negate, exponential, add one, reciprocal, multiply is g times the logistic of g. -/
theorem silu_spelt (g : Ideal .f32) :
    FloatOps.mulf g (FloatOps.hostDivf (FloatOps.ofBits (F := Ideal) .f32 0x3F800000#32)
      (FloatOps.addf (FloatOps.ofBits (F := Ideal) .f32 0x3F800000#32) (FloatOps.hostUnary .exp (FloatOps.hostNegf g))))
    = Cert.Spec.silu g := by
  rw [Ideal.ofBits_def, Ideal.ofBits_one_f32]
  rfl

/-- The last stage of the reference, at the ideal instance, is G. -/
theorem val_eq_G (x0 : (⟨S2x2048x4096, .f32⟩ : BufTy).Contents (Elt Ideal)) (x1 : (⟨S22016x4096, .f32⟩ : BufTy).Contents (Elt Ideal))
    (x2 : (⟨S4096x11008, .f32⟩ : BufTy).Contents (Elt Ideal)) :
    Cert.ReferenceIdeal.Read.val_main_v5 (F := Ideal) x0 x1 x2 = Cert.Spec.G x0 x1 x2 := by
  funext j
  rw [Read.val_main_v5_apply]
  unfold Cert.Spec.G
  refine Finset.sum_congr rfl fun k _ => ?_
  rw [Read.val_main_v4_apply, Read.val_main_v2_apply, Read.val_main_v3_apply, Read.val_main_call0_v5_apply,
    Read.val_main_call0_v4_apply, Read.val_main_call0_cst_0_apply, Read.val_main_call0_v3_apply,
    Read.val_main_call0_v2_apply, Read.val_main_call0_cst_apply, Read.val_main_call0_v1_apply,
    Read.val_main_call0_v0_apply, Read.val_main_v1_apply, Read.val_main_v0_apply, Read.val_main_v0_apply]
  -- the composed index functions are the specification's coordinates
  have hk : k.val < 11008 := k.isLt
  have eg0 : ∀ a : Fin 4096, Read.lidx_main_v0 (Read.idx_main_v1 (Read.lidx_main_v5 j k)) a = ix3 (j 0) (j 1) a :=
    fun a => funext fun d => Fin.ext (by match d with | ⟨0, _⟩ => rfl | ⟨1, _⟩ => rfl | ⟨2, _⟩ => rfl)
  have eg1 : ∀ a : Fin 4096, Read.ridx_main_v0 (Read.idx_main_v1 (Read.lidx_main_v5 j k)) a
      = ix2 (⟨k.val, by omega⟩ : Fin 22016) a :=
    fun a => funext fun d => Fin.ext (by match d with | ⟨0, _⟩ => rfl | ⟨1, _⟩ => rfl)
  have eu0 : ∀ a : Fin 4096, Read.lidx_main_v0 (Read.idx_main_v3 (Read.lidx_main_v5 j k)) a = ix3 (j 0) (j 1) a :=
    fun a => funext fun d => Fin.ext (by match d with | ⟨0, _⟩ => rfl | ⟨1, _⟩ => rfl | ⟨2, _⟩ => rfl)
  have eu1 : ∀ a : Fin 4096, Read.ridx_main_v0 (Read.idx_main_v3 (Read.lidx_main_v5 j k)) a
      = ix2 (⟨11008 + k.val, by omega⟩ : Fin 22016) a :=
    fun a => funext fun d => Fin.ext (by match d with | ⟨0, _⟩ => rfl | ⟨1, _⟩ => rfl)
  have ew : Read.ridx_main_v5 j k = ix2 (j 2) k :=
    funext fun d => Fin.ext (by match d with | ⟨0, _⟩ => rfl | ⟨1, _⟩ => rfl)
  simp only [eg0, eg1, eu0, eu1, ew]
  rw [silu_spelt]
  rfl

/-- The reference's run with its result named by G. -/
theorem run_G (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v5) = Cert.Spec.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨by rw [(h c).1, Read.val_main_v5_eq, val_eq_G], (h c).2⟩)
    (Cert.ReferenceIdeal.Value.run (F := Ideal) m ρ)

end Cert.ReferenceIdeal.RefValue

end
-- ==== Proof.lean ====
/-
  The certificate of the gated two-layer product (SwiGLU) kernel against its einsum reference.

  Both idealized programs compute, on the extended reals, out[m, h] = Σ_i (silu(Σ_a x[m,a]·w1[i,a]) · (Σ_a x[m,a]·w1[I+i,a])) · w2[h,i].
  The kernel pads the hidden axis with zeros and contracts block by block into accumulators carried across grid points;
  a padded term is a product with zero, and a sum of partial sums is the whole sum, by commutativity and associativity
  of + alone, so the precondition (finite inputs) is never opened. The frames of the two kernel programs come from
  one region record per pallas_call; the reference's from its run. The idealization rewrote nothing.
-/
import proofs.«140974_j30425548325397_1_alg».proof.Defs
import proofs.«140974_j30425548325397_1_alg».proof.Proof.Gen.Kernel
import proofs.«140974_j30425548325397_1_alg».proof.Proof.Gen.KernelIdeal
import proofs.«140974_j30425548325397_1_alg».proof.Proof.Gen.ReferenceIdeal
import proofs.«140974_j30425548325397_1_alg».proof.Proof.Gen.Pre_finite_inputs
import proofs.«140974_j30425548325397_1_alg».proof.Proof.K.Regs
import proofs.«140974_j30425548325397_1_alg».proof.Proof.KI.Final
import proofs.«140974_j30425548325397_1_alg».proof.Proof.KI.RefIsG

noncomputable section

namespace Cert.Proof

open Idealize.ShloMosaic Idealize.ShloMosaic.TcCoe Idealize.SL.Sem

theorem frame_k : Cert.frame_Kernel := fun m ρ _ => Cert.Kernel.Regs.frame m ρ
theorem frame_ki : Cert.frame_KernelIdeal := fun m ρ _ => Cert.KernelIdeal.Regs.frame m ρ
theorem frame_ri : Cert.frame_ReferenceIdeal := fun m ρ _ =>
  (θ_run Cert.ReferenceIdeal.defs _ _).mono (fun _ h c => (h c).2) (Cert.ReferenceIdeal.RefValue.run_G m ρ)

/-- From memories agreeing on the arguments both idealized programs end at one function of them. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.RefValue.run_G m' ρ')
  rw [(hagree c).1, (hagree c).2.1, (hagree c).2.2]
  exact (Cert.Spec.kernelValue_eq_G _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
